-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x32 : Shape := ⟨2, ![320000, 32]⟩
abbrev S320000 : Shape := ⟨1, ![320000]⟩
abbrev S256x256 : Shape := ⟨2, ![256, 256]⟩
abbrev S256 : Shape := ⟨1, ![256]⟩
abbrev S32x256 : Shape := ⟨2, ![32, 256]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S768x256 : S_.BroadcastsInDim S768x256 (![] : Fin 0 → Fin S768x256.rank)
  reducesTo_S768x256_S_d0_1 : S768x256.ReducesTo [0, 1] S_
  bcast_S_S320000 : S_.BroadcastsInDim S320000 (![] : Fin 0 → Fin S320000.rank)
  reducesTo_S320000_S_d0 : S320000.ReducesTo [0] S_

variable [Facts]

def fn_part2 {F : FTy → Type} [FloatOps F] (main_arg2 : IVec S320000 32) (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S320000 32 := broadcastInDim S320000 ![] bcast_S_S320000 main_c_14
  let main_v40 : IVec S320000 1 := cmpi .sge main_arg2 main_v39
  let main_c_15 : IVec S_ 32 := constantI S_ 32 10000#32
  let main_v41 : IVec S320000 32 := broadcastInDim S320000 ![] bcast_S_S320000 main_c_15
  let main_v42 : IVec S320000 1 := cmpi .slt main_arg2 main_v41
  let main_v43 : IVec S320000 1 := andi main_v40 main_v42
  let main_c_16 : IVec S_ 1 := constantI S_ 1 1#1
  let main_v44 : IVec S_ 1 := (fun x v => Host.reduce IntOp.andi x v reducesTo_S320000_S_d0 h_S_) main_v43 main_c_16
  let main_v45 : IVec S_ 1 := andi main_v38 main_v44
  main_v45

def fn_part1 {F : FTy → Type} [FloatOps F] (main_arg2 : IVec S320000 32) (main_arg6 : FVec F S32x256 .f32) (main_arg7 : FVec F S256 .f32) (main_arg8 : FVec F S768x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x256 .f32 := Host.absf main_arg6
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg8
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg2 main_arg9 main_v33

def fn {F : FTy → Type} [FloatOps F] (main_arg0 : FVec F S10000x256 .f32) (main_arg1 : FVec F S320000x32 .f32) (main_arg2 : IVec S320000 32) (main_arg3 : IVec S320000 32) (main_arg4 : FVec F S256x256 .f32) (main_arg5 : FVec F S256 .f32) (main_arg6 : FVec F S32x256 .f32) (main_arg7 : FVec F S256 .f32) (main_arg8 : FVec F S768x256 .f32) (main_arg9 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x32 .f32 := Host.absf main_arg1
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_v13 main_v16
-- ==== Kernel.lean ====
abbrev S10000x256 : Shape := ⟨2, ![10000, 256]⟩
abbrev S320000x32 : Shape := ⟨2, ![320000, 32]⟩
abbrev S320000 : Shape := ⟨1, ![320000]⟩
abbrev S256x256 : Shape := ⟨2, ![256, 256]⟩
abbrev S256 : Shape := ⟨1, ![256]⟩
abbrev S32x256 : Shape := ⟨2, ![32, 256]⟩
abbrev S768x256 : Shape := ⟨2, ![768, 256]⟩
abbrev S2000x256 : Shape := ⟨2, ![2000, 256]⟩
abbrev S1x256 : Shape := ⟨2, ![1, 256]⟩
abbrev S320000x256 : Shape := ⟨2, ![320000, 256]⟩
abbrev S4000x32 : Shape := ⟨2, ![4000, 32]⟩
abbrev S4000x256 : Shape := ⟨2, ![4000, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S10000 : Shape := ⟨1, ![10000]⟩
abbrev S10000x1 : Shape := ⟨2, ![10000, 1]⟩

abbrev nBuf : Space → Nat
  | .hbm => 87
  | .vmem => 24
  | .smem => 0
  | _ => 0

abbrev bufTy : (tb : Table) → Fin (tcTables nBuf tb) → BufTy
  | .hbm, ⟨0, _⟩ => ⟨S10000x256, .f32⟩
  | .hbm, ⟨1, _⟩ => ⟨S320000x32, .f32⟩
  | .hbm, ⟨2, _⟩ => ⟨S320000, .i32⟩
  | .hbm, ⟨3, _⟩ => ⟨S320000, .i32⟩
  | .hbm, ⟨4, _⟩ => ⟨S256x256, .f32⟩
  | .hbm, ⟨5, _⟩ => ⟨S256, .f32⟩
  | .hbm, ⟨6, _⟩ => ⟨S32x256, .f32⟩
  | .hbm, ⟨7, _⟩ => ⟨S256, .f32⟩
  | .hbm, ⟨8, _⟩ => ⟨S768x256, .f32⟩
  | .hbm, ⟨9, _⟩ => ⟨S256, .f32⟩
  | .hbm, ⟨10, _⟩ => ⟨S10000x256, .f32⟩
  | .hbm, ⟨11, _⟩ => ⟨S320000x256, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S1, .i32⟩
  | .hbm, ⟨21, _⟩ => ⟨S_, .i32⟩
  | .hbm, ⟨22, _⟩ => ⟨S320000x1, .i32⟩
  | .hbm, ⟨23, _⟩ => ⟨S320000x1, .i1⟩
  | .hbm, ⟨24, _⟩ => ⟨S1x1, .i32⟩
  | .hbm, ⟨25, _⟩ => ⟨S320000x1, .i32⟩
  | .hbm, ⟨26, _⟩ => ⟨S320000x1, .i1⟩
  | .hbm, ⟨27, _⟩ => ⟨S320000x1, .i1⟩
  | .hbm, ⟨28, _⟩ => ⟨S_, .i1⟩
  | .hbm, ⟨29, _⟩ => ⟨S320000, .i1⟩
  | .hbm, ⟨30, _⟩ => ⟨S320000x256, .f32⟩
  | .hbm, ⟨31, _⟩ => ⟨S320000x256, .i1⟩
  | .hbm, ⟨32, _⟩ => ⟨S_, .f32⟩
  | .hbm, ⟨33, _⟩ => ⟨S320000x256, .f32⟩
  | .hbm, ⟨34, _⟩ => ⟨S320000x256, .f32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S1, .i32⟩
  | .hbm, ⟨44, _⟩ => ⟨S_, .i32⟩
  | .hbm, ⟨45, _⟩ => ⟨S320000x1, .i32⟩
  | .hbm, ⟨46, _⟩ => ⟨S320000x1, .i1⟩
  | .hbm, ⟨47, _⟩ => ⟨S1x1, .i32⟩
  | .hbm, ⟨48, _⟩ => ⟨S320000x1, .i32⟩
  | .hbm, ⟨49, _⟩ => ⟨S320000x1, .i1⟩
  | .hbm, ⟨50, _⟩ => ⟨S320000x1, .i1⟩
  | .hbm, ⟨51, _⟩ => ⟨S_, .i1⟩
  | .hbm, ⟨52, _⟩ => ⟨S320000, .i1⟩
  | .hbm, ⟨53, _⟩ => ⟨S320000x256, .f32⟩
  | .hbm, ⟨54, _⟩ => ⟨S320000x256, .i1⟩
  | .hbm, ⟨55, _⟩ => ⟨S_, .f32⟩
  | .hbm, ⟨56, _⟩ => ⟨S320000x256, .f32⟩
  | .hbm, ⟨57, _⟩ => ⟨S320000x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S320000x256, .f32⟩
  | .hbm, ⟨62, _⟩ => ⟨S_, .f32⟩
  | .hbm, ⟨63, _⟩ => ⟨S10000x256, .f32⟩
  | .hbm, ⟨64, _⟩ => ⟨S320000x1, .i32⟩
  | .hbm, ⟨65, _⟩ => ⟨S10000x256, .f32⟩
  | .hbm, ⟨66, _⟩ => ⟨S_, .f32⟩
  | .hbm, ⟨67, _⟩ => ⟨S320000, .f32⟩
  | .hbm, ⟨68, _⟩ => ⟨S_, .f32⟩
  | .hbm, ⟨69, _⟩ => ⟨S10000, .f32⟩
  | .hbm, ⟨70, _⟩ => ⟨S320000x1, .i32⟩
  | .hbm, ⟨71, _⟩ => ⟨S10000, .f32⟩
  | .hbm, ⟨72, _⟩ => ⟨S10000x1, .f32⟩
  | .hbm, ⟨73, _⟩ => ⟨S_, .f32⟩
  | .hbm, ⟨74, _⟩ => ⟨S10000x1, .f32⟩
  | .hbm, ⟨75, _⟩ => ⟨S10000x1, .i1⟩
  | .hbm, ⟨76, _⟩ => ⟨S_, .f32⟩
  | .hbm, ⟨77, _⟩ => ⟨S10000, .f32⟩
  | .hbm, ⟨78, _⟩ => ⟨S10000, .f32⟩
  | .hbm, ⟨79, _⟩ => ⟨S10000x1, .f32⟩
  | .hbm, ⟨80, _⟩ => ⟨S10000x256, .f32⟩
  | .hbm, ⟨81, _⟩ => ⟨S10000x256, .f32⟩
  | .hbm, ⟨82, _⟩ => ⟨S_, .f32⟩
  | .hbm, ⟨83, _⟩ => ⟨S_, .f32⟩
  | .hbm, ⟨84, _⟩ => ⟨S10000x256, .i1⟩
  | .hbm, ⟨85, _⟩ => ⟨S10000x256, .f32⟩
  | .hbm, ⟨86, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S4000x32, .f32⟩
  | .local _ .vmem, ⟨7, _⟩ => ⟨S4000x32, .f32⟩
  | .local _ .vmem, ⟨8, _⟩ => ⟨S32x256, .f32⟩
  | .local _ .vmem, ⟨9, _⟩ => ⟨S256, .f32⟩
  | .local _ .vmem, ⟨10, _⟩ => ⟨S4000x256, .f32⟩
  | .local _ .vmem, ⟨11, _⟩ => ⟨S4000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_cst : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_cst_0 : Ref sig .tc := ⟨.hbm, 66, rfl⟩
abbrev main_v11 : Ref sig .tc := ⟨.hbm, 67, rfl⟩
abbrev main_cst_1 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst_2 : Ref sig .tc := ⟨.hbm, 73, rfl⟩
abbrev main_v16 : Ref sig .tc := ⟨.hbm, 74, rfl⟩
abbrev main_v17 : Ref sig .tc := ⟨.hbm, 75, rfl⟩
abbrev main_cst_3 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_cst_4 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v23 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S4000x32_S4000x32_0_0 : ∀ a, (![0, 0] : Fin 2 → Nat) a + S4000x32.size a ≤ S4000x32.size a
  h_S4000x32 : 0 < S4000x32.numel
  inb_S32x256_S32x256_0_0 : ∀ a, (![0, 0] : Fin 2 → Nat) a + S32x256.size a ≤ S32x256.size a
  h_S32x256 : 0 < S32x256.numel
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S2000x256_S2000x256 : S2000x256.ShapeCasts S2000x256
  shapeCasts_S256x256_S256x256 : S256x256.ShapeCasts S256x256
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  dot_S2000x256_S256x256_S2000x256_1_0_0_1_n_n_wf : DotDims.WF S2000x256 S256x256 S2000x256 [1] [0] [0] [1] [] []
  dot_S4000x32_S32x256_S4000x256_1_0_0_1_n_n_wf : DotDims.WF S4000x32 S32x256 S4000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S320000x32.size a
  hwx1_0 : ∀ i : grid1.Coords, EltTy.bits .f32 = 32 ∨ (Rect.block (s := S320000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S320000x256.size a
  hwx1_3 : ∀ i : grid1.Coords, EltTy.bits .f32 = 32 ∨ (Rect.block (s := S320000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S320000x256.size a
  hwx2_0 : ∀ i : grid2.Coords, EltTy.bits .f32 = 32 ∨ (Rect.block (s := S320000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S320000x256.size a
  hwx2_1 : ∀ i : grid2.Coords, EltTy.bits .f32 = 32 ∨ (Rect.block (s := S320000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S320000x256.size a
  hwx2_2 : ∀ i : grid2.Coords, EltTy.bits .f32 = 32 ∨ (Rect.block (s := S320000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S320000x256.size a
  hwx2_7 : ∀ i : grid2.Coords, EltTy.bits .f32 = 32 ∨ (Rect.block (s := S320000x256) S2000x256.size (cc2_transform_7 i) (hinb2_7 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x256 : Shape := ⟨2, ![10000, 256]⟩
abbrev S320000x32 : Shape := ⟨2, ![320000, 32]⟩
abbrev S320000 : Shape := ⟨1, ![320000]⟩
abbrev S256x256 : Shape := ⟨2, ![256, 256]⟩
abbrev S256 : Shape := ⟨1, ![256]⟩
abbrev S32x256 : Shape := ⟨2, ![32, 256]⟩
abbrev S768x256 : Shape := ⟨2, ![768, 256]⟩
abbrev S320000x256 : Shape := ⟨2, ![320000, 256]⟩
abbrev S1x256 : Shape := ⟨2, ![1, 256]⟩
abbrev S_ : Shape := ⟨0, ![]⟩
abbrev S320000x1 : Shape := ⟨2, ![320000, 1]⟩
abbrev S320000x768 : Shape := ⟨2, ![320000, 768]⟩
abbrev S10000 : Shape := ⟨1, ![10000]⟩
abbrev S10000x1 : Shape := ⟨2, ![10000, 1]⟩

abbrev nBuf : Space → Nat
  | .hbm => 75
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x32, .f32⟩
  | .hbm, ⟨2, _⟩ => ⟨S320000, .i32⟩
  | .hbm, ⟨3, _⟩ => ⟨S320000, .i32⟩
  | .hbm, ⟨4, _⟩ => ⟨S256x256, .f32⟩
  | .hbm, ⟨5, _⟩ => ⟨S256, .f32⟩
  | .hbm, ⟨6, _⟩ => ⟨S32x256, .f32⟩
  | .hbm, ⟨7, _⟩ => ⟨S256, .f32⟩
  | .hbm, ⟨8, _⟩ => ⟨S768x256, .f32⟩
  | .hbm, ⟨9, _⟩ => ⟨S256, .f32⟩
  | .hbm, ⟨10, _⟩ => ⟨S320000x256, .f32⟩
  | .hbm, ⟨11, _⟩ => ⟨S1x256, .f32⟩
  | .hbm, ⟨12, _⟩ => ⟨S320000x256, .f32⟩
  | .hbm, ⟨13, _⟩ => ⟨S320000x256, .f32⟩
  | .hbm, ⟨14, _⟩ => ⟨S_, .f32⟩
  | .hbm, ⟨15, _⟩ => ⟨S320000x256, .f32⟩
  | .hbm, ⟨16, _⟩ => ⟨S320000x256, .f32⟩
  | .hbm, ⟨17, _⟩ => ⟨S10000x256, .f32⟩
  | .hbm, ⟨18, _⟩ => ⟨S1x256, .f32⟩
  | .hbm, ⟨19, _⟩ => ⟨S10000x256, .f32⟩
  | .hbm, ⟨20, _⟩ => ⟨S10000x256, .f32⟩
  | .hbm, ⟨21, _⟩ => ⟨S_, .f32⟩
  | .hbm, ⟨22, _⟩ => ⟨S10000x256, .f32⟩
  | .hbm, ⟨23, _⟩ => ⟨S10000x256, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x256, .f32⟩
  | .hbm, ⟨42, _⟩ => ⟨S320000x768, .f32⟩
  | .hbm, ⟨43, _⟩ => ⟨S320000x256, .f32⟩
  | .hbm, ⟨44, _⟩ => ⟨S1x256, .f32⟩
  | .hbm, ⟨45, _⟩ => ⟨S320000x256, .f32⟩
  | .hbm, ⟨46, _⟩ => ⟨S320000x256, .f32⟩
  | .hbm, ⟨47, _⟩ => ⟨S_, .f32⟩
  | .hbm, ⟨48, _⟩ => ⟨S320000x256, .f32⟩
  | .hbm, ⟨49, _⟩ => ⟨S320000x256, .f32⟩
  | .hbm, ⟨50, _⟩ => ⟨S_, .f32⟩
  | .hbm, ⟨51, _⟩ => ⟨S10000x256, .f32⟩
  | .hbm, ⟨52, _⟩ => ⟨S320000x1, .i32⟩
  | .hbm, ⟨53, _⟩ => ⟨S10000x256, .f32⟩
  | .hbm, ⟨54, _⟩ => ⟨S_, .f32⟩
  | .hbm, ⟨55, _⟩ => ⟨S320000, .f32⟩
  | .hbm, ⟨56, _⟩ => ⟨S_, .f32⟩
  | .hbm, ⟨57, _⟩ => ⟨S10000, .f32⟩
  | .hbm, ⟨58, _⟩ => ⟨S320000x1, .i32⟩
  | .hbm, ⟨59, _⟩ => ⟨S10000, .f32⟩
  | .hbm, ⟨60, _⟩ => ⟨S10000x1, .f32⟩
  | .hbm, ⟨61, _⟩ => ⟨S_, .f32⟩
  | .hbm, ⟨62, _⟩ => ⟨S10000x1, .f32⟩
  | .hbm, ⟨63, _⟩ => ⟨S10000x1, .i1⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x256, .f32⟩
  | .hbm, ⟨69, _⟩ => ⟨S10000x256, .f32⟩
  | .hbm, ⟨70, _⟩ => ⟨S_, .f32⟩
  | .hbm, ⟨71, _⟩ => ⟨S_, .f32⟩
  | .hbm, ⟨72, _⟩ => ⟨S10000x256, .i1⟩
  | .hbm, ⟨73, _⟩ => ⟨S10000x256, .f32⟩
  | .hbm, ⟨74, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call2_cst : Ref sig .tc := ⟨.hbm, 47, rfl⟩
abbrev main_call2_v0 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v45 : Ref sig .tc := ⟨.hbm, 74, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x256_S320000x768_d1 : Shape.Concatenates [S320000x256, S320000x256, S320000x256] S320000x768 1
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  dot_S320000x32_S32x256_S320000x256_1_0_0_1_n_n_wf : DotDims.WF S320000x32 S32x256 S320000x256 [1] [0] [0] [1] [] []
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  dot_S320000x768_S768x256_S320000x256_1_0_0_1_n_n_wf : DotDims.WF S320000x768 S768x256 S320000x256 [1] [0] [0] [1] [] []
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1

variable [Facts₀]

def dot_S320000x32_S32x256_S320000x256_1_0_0_1_n_n : DotDims S320000x32 S32x256 S320000x256 where
  lhsContracting := [1]
  rhsContracting := [0]
  lhsNonContracting := [0]
  rhsNonContracting := [1]
  lhsBatch := []
  rhsBatch := []
  wf := dot_S320000x32_S32x256_S320000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x768_S768x256_S320000x256_1_0_0_1_n_n : DotDims S320000x768 S768x256 S320000x256 where
  lhsContracting := [1]
  rhsContracting := [0]
  lhsNonContracting := [0]
  rhsNonContracting := [1]
  lhsBatch := []
  rhsBatch := []
  wf := dot_S320000x768_S768x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf

class Facts : Prop extends Facts₀ where

variable [Facts]
-- ==== Proof.HostVal.lean ====
/-
  The host operations of the kernel's program between and after its three regions, read as functions.

  A TAKE of rows: the index is first counted from the end when negative (10000 added), laid as a column, and the
  gather reads the node-feature row at it; a row whose index, after that, is not in 0 … 9999 is replaced by the
  fill word. THE TAIL: the rows of the mix layer's output are summed into their segment's row (an index outside
  0 … 9999 is dropped), the segments are counted the same way, and each row is divided by its count where the
  count is positive, zero elsewhere.

  Each lemma reads one buffer at one boundary of the run as such a function of the buffers one boundary earlier.
-/
import proofs.«400839_j63007170232987_1_alg».proof.Proof.Gen.KernelIdeal.Frame
import Idealize.ShloMosaic.Lib.StableHlo.Run

set_option maxRecDepth 16384

noncomputable section

namespace Cert.KernelIdeal.HostVal

open Idealize.ShloMosaic Idealize.ShloMosaic.TcCoe Idealize.SL.Sem Idealize.ShloMosaic.StableHlo
open Cert.KernelIdeal Cert.KernelIdeal.Gen

variable {F : FTy → Type} [FloatOps F]

/-- The index column a take reads: a negative index is counted from the end, then the vector is laid as a column. -/
def wrapCol (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- Row by row: is the column's index in 0 … 9999? -/
def rowOk (col : IVec S320000x1 32) : IVec S320000 1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The take: the gathered rows where the index is in range, the fill word elsewhere. -/
def takeRows (nf : FVec F S10000x256 .f32) (idx : IVec S320000 32) : FVec F S320000x256 .f32 :=
  select (broadcastInDim S320000x256 ![0] bcast_S320000_S320000x256_0 (rowOk (wrapCol idx)))
    (Host.gather gather_S10000x256_S320000x1_S320000x256_1_0_n_n_0_1_1256 nf (wrapCol idx))
    (broadcastInDim S320000x256 ![] bcast_S_S320000x256 (constant S_ .f32 0x7FC00000#32))

/-- The segment sum: row e of the update array added into row `seg[e]` of a zero array, rows outside it dropped. -/
def segSum (feat : FVec F S320000x256 .f32) (seg : IVec S320000 32) : FVec F S10000x256 .f32 :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 seg) feat

/-- The segment count: a one added at `seg[e]` for every e. -/
def segCount (seg : IVec S320000 32) : FVec F S10000 .f32 :=
  Host.scatterAdd scatter_S10000_S320000x1_S320000_n_0_0_1
    (broadcastInDim S10000 ![] bcast_S_S10000 (constant S_ .f32 0x00000000#32))
    (broadcastInDim S320000x1 ![0] bcast_S320000_S320000x1_0 seg)
    (broadcastInDim S320000 ![] bcast_S_S320000 (constant S_ .f32 0x3F800000#32))

/-- The mean by rows: the sum over the count where the count is positive (the divisor never below one), zero elsewhere. -/
def meanRows (s : FVec F S10000x256 .f32) (cnt : FVec F S10000 .f32) : FVec F S10000x256 .f32 :=
  select
    (broadcastInDim S10000x256 ![0, 1] bcast_S10000x1_S10000x256_0_1
      (cmpf .ogt (broadcastInDim S10000x1 ![0] bcast_S10000_S10000x1_0 cnt)
        (broadcastInDim S10000x1 ![] bcast_S_S10000x1 (constant S_ .f32 0x00000000#32))))
    (Host.divf s
      (broadcastInDim S10000x256 ![0, 1] bcast_S10000x1_S10000x256_0_1
        (broadcastInDim S10000x1 ![0] bcast_S10000_S10000x1_0
          (maximumf cnt (broadcastInDim S10000 ![] bcast_S_S10000 (constant S_ .f32 0x3F800000#32))))))
    (broadcastInDim S10000x256 ![] bcast_S_S10000x256 (id (constant S_ .f32 0x00000000#32)))

/-- The tail of the program: the segment mean of the mix layer's rows. -/
def tailRows (feat : FVec F S320000x256 .f32) (seg : IVec S320000 32) : FVec F S10000x256 .f32 :=
  meanRows (segSum feat seg) (segCount (F := F) seg)

/-- A buffer a stretch of host operations does not write keeps its contents: the stretch's writes are listed and the
    buffer compared with each. -/
local macro "kept_by" "[" l:ident "]" : tactic => `(tactic|
  exact StableHlo.after_of_forall_not_mem _ _ (List.forall_iff_forall_mem.mp (by
    simp only [$l:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt F) ℓ) (ρ : Dev nD → PrngReg)

/-! ## The two takes and the three weight blocks, one boundary at a time -/

set_option maxHeartbeats 4000000 in
/-- After the first take's operations its result holds the take of the node features at the first index vector. -/
theorem W3_v2 (c : Dev nD) :
    W3 m ρ c (Proc.devRef .tc main_v2)
      = takeRows (F := F) (W2 m ρ c (Proc.devRef .tc main_v0)) (W2 m ρ c (Proc.devRef .tc main_arg2)) := by
  show StableHlo.after hostOps2 (W2 m ρ c) (Proc.devRef .tc main_v2) = _
  generalize W2 m ρ c = X
  unfold takeRows rowOk wrapCol
  after_results_simp
  simp only [TRef.ofBuf, TRef.toBuf, cast_eq]

set_option maxHeartbeats 4000000 in
/-- After the second take's operations its result holds the take of the node features at the second index vector. -/
theorem W4_v3 (c : Dev nD) :
    W4 m ρ c (Proc.devRef .tc main_v3)
      = takeRows (F := F) (W3 m ρ c (Proc.devRef .tc main_v0)) (W3 m ρ c (Proc.devRef .tc main_arg3)) := by
  show StableHlo.after hostOps2_1 (W3 m ρ c) (Proc.devRef .tc main_v3) = _
  generalize W3 m ρ c = X
  unfold takeRows rowOk wrapCol
  after_results_simp
  simp only [TRef.ofBuf, TRef.toBuf, cast_eq]

/-- The three weight blocks are the three row slices of the whole weight. -/
theorem W5_v4 (c : Dev nD) : W5 m ρ c (Proc.devRef .tc main_v4)
    = extractStridedSlice S256x256 ![0, 0] (W4 m ρ c (Proc.devRef .tc main_arg8)) slices_S768x256_S256x256_0_0 := by
  show StableHlo.after hostOps2_2 (W4 m ρ c) (Proc.devRef .tc main_v4) = _
  generalize W4 m ρ c = X
  after_results
theorem W5_v5 (c : Dev nD) : W5 m ρ c (Proc.devRef .tc main_v5)
    = extractStridedSlice S256x256 ![256, 0] (W4 m ρ c (Proc.devRef .tc main_arg8)) slices_S768x256_S256x256_256_0 := by
  show StableHlo.after hostOps2_2 (W4 m ρ c) (Proc.devRef .tc main_v5) = _
  generalize W4 m ρ c = X
  after_results
theorem W5_v6 (c : Dev nD) : W5 m ρ c (Proc.devRef .tc main_v6)
    = extractStridedSlice S256x256 ![512, 0] (W4 m ρ c (Proc.devRef .tc main_arg8)) slices_S768x256_S256x256_512_0 := by
  show StableHlo.after hostOps2_2 (W4 m ρ c) (Proc.devRef .tc main_v6) = _
  generalize W4 m ρ c = X
  after_results

/-! ## What the stretches leave alone -/

theorem W3_keep_v0 (c : Dev nD) : W3 m ρ c (Proc.devRef .tc main_v0) = W2 m ρ c (Proc.devRef .tc main_v0) := by kept_by [hostOps2]
theorem W3_keep_v1 (c : Dev nD) : W3 m ρ c (Proc.devRef .tc main_v1) = W2 m ρ c (Proc.devRef .tc main_v1) := by kept_by [hostOps2]
theorem W3_keep_arg3 (c : Dev nD) : W3 m ρ c (Proc.devRef .tc main_arg3) = W2 m ρ c (Proc.devRef .tc main_arg3) := by kept_by [hostOps2]
theorem W3_keep_arg8 (c : Dev nD) : W3 m ρ c (Proc.devRef .tc main_arg8) = W2 m ρ c (Proc.devRef .tc main_arg8) := by kept_by [hostOps2]
theorem W3_keep_arg9 (c : Dev nD) : W3 m ρ c (Proc.devRef .tc main_arg9) = W2 m ρ c (Proc.devRef .tc main_arg9) := by kept_by [hostOps2]
theorem W4_keep_v1 (c : Dev nD) : W4 m ρ c (Proc.devRef .tc main_v1) = W3 m ρ c (Proc.devRef .tc main_v1) := by kept_by [hostOps2_1]
theorem W4_keep_v2 (c : Dev nD) : W4 m ρ c (Proc.devRef .tc main_v2) = W3 m ρ c (Proc.devRef .tc main_v2) := by kept_by [hostOps2_1]
theorem W4_keep_arg3 (c : Dev nD) : W4 m ρ c (Proc.devRef .tc main_arg3) = W3 m ρ c (Proc.devRef .tc main_arg3) := by kept_by [hostOps2_1]
theorem W4_keep_arg8 (c : Dev nD) : W4 m ρ c (Proc.devRef .tc main_arg8) = W3 m ρ c (Proc.devRef .tc main_arg8) := by kept_by [hostOps2_1]
theorem W4_keep_arg9 (c : Dev nD) : W4 m ρ c (Proc.devRef .tc main_arg9) = W3 m ρ c (Proc.devRef .tc main_arg9) := by kept_by [hostOps2_1]
theorem W5_keep_v1 (c : Dev nD) : W5 m ρ c (Proc.devRef .tc main_v1) = W4 m ρ c (Proc.devRef .tc main_v1) := by kept_by [hostOps2_2]
theorem W5_keep_v2 (c : Dev nD) : W5 m ρ c (Proc.devRef .tc main_v2) = W4 m ρ c (Proc.devRef .tc main_v2) := by kept_by [hostOps2_2]
theorem W5_keep_v3 (c : Dev nD) : W5 m ρ c (Proc.devRef .tc main_v3) = W4 m ρ c (Proc.devRef .tc main_v3) := by kept_by [hostOps2_2]
theorem W5_keep_arg3 (c : Dev nD) : W5 m ρ c (Proc.devRef .tc main_arg3) = W4 m ρ c (Proc.devRef .tc main_arg3) := by kept_by [hostOps2_2]
theorem W5_keep_arg9 (c : Dev nD) : W5 m ρ c (Proc.devRef .tc main_arg9) = W4 m ρ c (Proc.devRef .tc main_arg9) := by kept_by [hostOps2_2]

/-- An argument no region writes is, at the second region's exit, what the launch memory holds. -/
theorem W2_arg (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-! ## The tail -/

set_option maxHeartbeats 4000000 in
/-- After the last two stretches the result buffer holds the segment mean of the mix layer's output array. -/
theorem W8_v23 (c : Dev nD) :
    W8 m ρ c (Proc.devRef .tc main_v23)
      = tailRows (F := F) (W6 m ρ c (Proc.devRef .tc main_v7)) (W6 m ρ c (Proc.devRef .tc main_arg3)) := by
  show StableHlo.after hostOps3_1 (StableHlo.after hostOps3 (W6 m ρ c)) (Proc.devRef .tc main_v23) = _
  generalize W6 m ρ c = X
  unfold tailRows meanRows segSum segCount
  after_results_simp
  simp only [TRef.ofBuf, TRef.toBuf, cast_eq]

end Cert.KernelIdeal.HostVal

end
-- ==== Proof.Spec.lean ====
/-
  The two array functions this kernel is made of, over the extended reals, index by index.

  A LINEAR LAYER WITH RELU: row r, column q of the result is max(sum over k of x[r,k]·w[k,q] + b[q], 0).
  THE MIX LAYER: three such products, of three row-aligned arrays against three square weight blocks, added
  left to right, then the bias, then the same relu. The zero the relu compares against is kept as the word
  the programs print for it; nothing here evaluates it.

  A WEIGHT BLOCK: the mix layer's three square weights are the three row blocks of one [768, 256] weight.

  Both are stated for any number of rows (and, for the linear layer, any contraction length): the node layer,
  the edge layer and the mix layer's row blocks all read them.
-/
import Idealize.ShloMosaic.PureOps.Ideal
import Idealize.ShloMosaic.Lib.ValueIdx

noncomputable section

namespace Cert.Mix

open Idealize.ShloMosaic Idealize.ShloMosaic.ValueIdx

/-- The zero word of the relu, as an extended real. -/
abbrev z32 : EReal := Ideal.ofBits .f32 0x00000000#32

/-- relu(x·w + b): entry (r, q) is the maximum of zero and the sum over k of x[r,k]·w[k,q], plus b[q]. -/
def linRelu {R K : Nat} (x : FVec Ideal ⟨2, ![R, K]⟩ .f32) (w : FVec Ideal ⟨2, ![K, 256]⟩ .f32)
    (b : FVec Ideal ⟨1, ![256]⟩ .f32) : FVec Ideal ⟨2, ![R, 256]⟩ .f32 :=
  fun i => max ((∑ k : Fin K, x (ix2 (⟨(i 0).val, idx2_lt0 i⟩ : Fin R) k) * w (ix2 k (⟨(i 1).val, idx2_lt1 i⟩ : Fin 256)))
    + b (ix1 (⟨(i 1).val, idx2_lt1 i⟩ : Fin 256))) z32

/-- relu(a·w1 + b·w2 + c·w3 + bias), the three products added left to right: entry (r, q). -/
def mixRelu {E : Nat} (a b c : FVec Ideal ⟨2, ![E, 256]⟩ .f32) (w1 w2 w3 : FVec Ideal ⟨2, ![256, 256]⟩ .f32)
    (bias : FVec Ideal ⟨1, ![256]⟩ .f32) : FVec Ideal ⟨2, ![E, 256]⟩ .f32 :=
  fun i => max ((((∑ k : Fin 256, a (ix2 (⟨(i 0).val, idx2_lt0 i⟩ : Fin E) k) * w1 (ix2 k (⟨(i 1).val, idx2_lt1 i⟩ : Fin 256)))
      + (∑ k : Fin 256, b (ix2 (⟨(i 0).val, idx2_lt0 i⟩ : Fin E) k) * w2 (ix2 k (⟨(i 1).val, idx2_lt1 i⟩ : Fin 256))))
      + (∑ k : Fin 256, c (ix2 (⟨(i 0).val, idx2_lt0 i⟩ : Fin E) k) * w3 (ix2 k (⟨(i 1).val, idx2_lt1 i⟩ : Fin 256))))
    + bias (ix1 (⟨(i 1).val, idx2_lt1 i⟩ : Fin 256))) z32

/-- Rows 256·k … 256·k+255 of a [768, 256] weight, as a [256, 256] block: entry (p, q) is the weight's (256·k + p, q). -/
def wBlock (k : Fin 3) (w : FVec Ideal ⟨2, ![768, 256]⟩ .f32) : FVec Ideal ⟨2, ![256, 256]⟩ .f32 :=
  fun i => w (ix2 (⟨256 * k.val + (i 0).val, by have h0 := idx2_lt0 i; have hk := k.isLt; omega⟩ : Fin 768)
    (⟨(i 1).val, idx2_lt1 i⟩ : Fin 256))

/-- The mix layer's entry (r, q) reads only row r of its three row-aligned arrays. -/
theorem mixRelu_congr_row {E : Nat} (a a' b b' c c' : FVec Ideal ⟨2, ![E, 256]⟩ .f32) (w1 w2 w3 : FVec Ideal ⟨2, ![256, 256]⟩ .f32)
    (bias : FVec Ideal ⟨1, ![256]⟩ .f32) (i : (⟨2, ![E, 256]⟩ : Shape).Idx)
    (ha : ∀ k : Fin 256, a (ix2 (⟨(i 0).val, idx2_lt0 i⟩ : Fin E) k) = a' (ix2 (⟨(i 0).val, idx2_lt0 i⟩ : Fin E) k))
    (hb : ∀ k : Fin 256, b (ix2 (⟨(i 0).val, idx2_lt0 i⟩ : Fin E) k) = b' (ix2 (⟨(i 0).val, idx2_lt0 i⟩ : Fin E) k))
    (hc : ∀ k : Fin 256, c (ix2 (⟨(i 0).val, idx2_lt0 i⟩ : Fin E) k) = c' (ix2 (⟨(i 0).val, idx2_lt0 i⟩ : Fin E) k)) :
    mixRelu a b c w1 w2 w3 bias i = mixRelu a' b' c' w1 w2 w3 bias i := by
  unfold mixRelu
  simp only [ha, hb, hc]

end Cert.Mix

end
-- ==== Proof.Region0.lean ====
/-
  REGION 0 (the node layer). Five grid points, point t holding rows 2000·t … 2000·t+1999 of the node features; the weight and the bias are whole at every point. What the region leaves in its output array is the linear layer with relu of the three arrays it reads, as ONE function of them.
-/
import proofs.«400839_j63007170232987_1_alg».proof.Proof.Gen.KernelIdeal.Frame
import proofs.«400839_j63007170232987_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The product read at an index

The body's product contracts axis 1 of the row block with axis 0 of the weight: at output index (p, q) and contraction
position k the left operand is read at (p, k) and the right at (k, q). The four coordinate facts, one per operand axis. -/

theorem mm_lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm_lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem mm_rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem mm_rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into the zero accumulator, at (p, q): the sum over k of a[p,k]·b[k,q]. -/
theorem mm_apply (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  show FloatOps.matmul dot_S2000x256_S256x256_S2000x256_1_0_0_1_n_n none a b (constant (F := Ideal) S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact mm_lhs_0 _ _
    | ⟨1, _⟩ => exact (mm_lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (mm_rhs_0 _ _).trans hk
    | ⟨1, _⟩ => exact mm_rhs_1 _ _)
  rw [el, er]

/-! ## The bias read at an index -/

/-- The bias, given a leading unit axis and repeated down the rows, reads b[q] at (p, q). -/
theorem bias_apply (b : FVec Ideal S256 .f32) (p : Fin 2000) (q : Fin 256) :
    broadcastTo S2000x256 (shapeCast S1x256 b shapeCasts_S256_S1x256) broadcasts_S1x256_S2000x256 (ix2 p q) = b (ix1 q) :=
  (broadcastTo_1b_ab_apply _ broadcasts_S1x256_S2000x256 p q).trans (shapeCast_a_1a_apply b shapeCasts_S256_S1x256 (0 : Fin 1) q)

/-! ## The body's payload at an index -/

/-- What the body stores at (p, q) of its block: max(sum over k of x[p,k]·w[k,q] + b[q], 0), the zero as its printed word. -/
theorem pay_apply (x0 : Vec Ideal S2000x256 .f32) (x1 : Vec Ideal S256x256 .f32) (x2 : Vec Ideal S256 .f32) (p : Fin 2000) (q : Fin 256) :
    k0_pay1 (F := Ideal) x0 x1 x2 (ix2 p q)
      = max ((∑ k : Fin 256, x0 (ix2 p k) * x1 (ix2 k q)) + x2 (ix1 q)) Cert.Mix.z32 := by
  unfold k0_pay1
  refine (maximumf_apply _ _ _).trans ?_
  refine congrArg₂ max ?_ rfl
  refine (addf_apply _ _ _).trans ?_
  refine congrArg₂ (· + ·) ?_ (bias_apply x2 p q)
  exact mm_apply _ _ p q

/-! ## The specification at an index named by its coordinates -/

/-- The linear layer with relu at an index whose row is r and column is q. -/
theorem linRelu_at (x : FVec Ideal S10000x256 .f32) (w : FVec Ideal S256x256 .f32) (b : FVec Ideal S256 .f32)
    (i : S10000x256.Idx) (r : Fin 10000) (q : Fin 256) (h0 : (i 0).val = r.val) (h1 : (i 1).val = q.val) :
    Cert.Mix.linRelu (R := 10000) (K := 256) x w b i
      = max ((∑ k : Fin 256, x (ix2 r k) * w (ix2 k q)) + b (ix1 q)) Cert.Mix.z32 := by
  unfold Cert.Mix.linRelu
  have er : (⟨(i 0).val, idx2_lt0 i⟩ : Fin 10000) = r := Fin.ext h0
  have eq : (⟨(i 1).val, idx2_lt1 i⟩ : Fin 256) = q := Fin.ext h1
  rw [er, eq]

/-! ## The index maps over the grid -/

theorem hz2 : (![0, 0] : Fin 2 → Nat) = fun _ => 0 := funext fun a => by fin_cases a <;> rfl
theorem hz1 : (![0] : Fin 1 → Nat) = fun _ => 0 := funext fun a => by fin_cases a <;> rfl

/-- At each of the five points the row-blocked input moves with the output along the rows and sits at column block
    zero; the weight and the bias are at block zero; the output's row-block number is below five, its column block zero. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) ≤ 4
    ∧ win0_3.index t (1 : Fin 2) = 0 :=
  (by decide +kernel : ∀ t : Fin grid0.N, _)

/-- Every row-block number is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-! ## The input blocks read where the output's block says -/

/-- The node features' block at point t, at (p, k), is the array at row r = (the output's row-block number)·2000 + p. -/
theorem x_at (c : Dev nD) (t : Fin cfg0.N) (p : Fin 2000) (k : Fin 256) (r : Fin 10000)
    (hr : r.val = win0_3.index t (0 : Fin 2) * 2000 + 1 * p.val) :
    iblk0 (F := Ideal) V c 0 t (ix2 p k) = (V c main_arg0 : FVec Ideal S10000x256 .f32) (ix2 r k) := by
  obtain ⟨e0, e1, -⟩ := idx_facts t
  show (V c main_arg0 : FVec Ideal S10000x256 .f32) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The weight's block at every point is the weight. -/
theorem w_at (c : Dev nD) (t : Fin cfg0.N) (k : Fin 256) (q : Fin 256) :
    iblk0 (F := Ideal) V c 1 t (ix2 k q) = (V c main_arg4 : FVec Ideal S256x256 .f32) (ix2 k q) := by
  obtain ⟨-, -, e2, e3, -⟩ := idx_facts t
  show (V c main_arg4 : FVec Ideal S256x256 .f32) (((cfg0.win 1).blk t).view.emb (ix2 k q)) = _
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- The bias's block at every point is the bias. -/
theorem b_at (c : Dev nD) (t : Fin cfg0.N) (q : Fin 256) :
    iblk0 (F := Ideal) V c 2 t (ix1 q) = (V c main_arg5 : FVec Ideal S256 .f32) (ix1 q) := by
  obtain ⟨-, -, -, -, e4, -⟩ := idx_facts t
  show (V c main_arg5 : FVec Ideal S256 .f32) (((cfg0.win 2).blk t).view.emb (ix1 q)) = _
  refine congrArg _ (funext fun a => Fin.ext ?_)
  match a with
  | ⟨0, _⟩ => show win0_2.index t (0 : Fin 1) * 256 + 1 * q.val = q.val; omega

/-! ## What a point writes back -/

/-- Point t writes back block t of the linear layer with relu of the arrays the region found. -/
theorem flushed_eq (c : Dev nD) (t : Fin cfg0.N) :
    (dat0 (F := Ideal) V c).flushed 3 t
      = ((cfg0.win 3).blk t).view.read (Elt Ideal) (Cert.Mix.linRelu (R := 10000) (K := 256) (V c main_arg0) (V c main_arg4) (V c main_arg5)) := by
  show (cfg0.win 3).cut (grid0.coords t) ((dat0 (F := Ideal) V c).after 3 t) = _
  rw [after0_3]
  unfold out0_3
  rw [View.canon_unit_zero hz2]
  simp only [View.ld_unit_zero (S := S2000x256) hz2, View.ld_unit_zero (S := S256x256) hz2, View.ld_unit_zero (S := S256) hz1]
  obtain ⟨-, -, -, -, -, e5, e6⟩ := idx_facts t
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = Cert.Mix.linRelu (R := 10000) (K := 256) (V c main_arg0) (V c main_arg4) (V c main_arg5) (((cfg0.win 3).blk t).view.emb (ix2 p q))
  refine (pay_apply _ _ _ p q).trans ?_
  have hr : win0_3.index t (0 : Fin 2) * 2000 + 1 * p.val < 10000 := by have := p.isLt; omega
  refine Eq.trans ?_ (linRelu_at _ _ _ _ ⟨win0_3.index t (0 : Fin 2) * 2000 + 1 * p.val, hr⟩ q ?_ ?_).symm
  · exact congrArg₂ max (congrArg₂ (· + ·) (Finset.sum_congr rfl fun k _ =>
      congrArg₂ (· * ·) (x_at V c t p k _ rfl) (w_at V c t k q)) (b_at V c t q)) rfl
  · show win0_3.index t (0 : Fin 2) * 2000 + 1 * p.val = _; rfl
  · show win0_3.index t (1 : Fin 2) * 256 + 1 * q.val = q.val; omega

/-! ## The blocks cover the array -/

/-- An index of the array is in point t's block iff each coordinate is in the block's range on its axis. -/
theorem mem_blk (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v0).slice (win0_3.rect t)).set ↔ _
  rw [View.set_slice_whole, Rect.mem_set_unit]
  exact Iff.rfl

/-- Row r of the array is in the block of the point whose row-block number is r / 2000; every column is in it. -/
theorem cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The node layer's output array after the region: relu(x·w + b) of the arrays the region found. -/
theorem arr (c : Dev nD) :
    (dat0 (F := Ideal) V c).arrAt 3 cfg0.N
      = Cert.Mix.linRelu (R := 10000) (K := 256) (V c main_arg0) (V c main_arg4) (V c main_arg5) :=
  (dat0 (F := Ideal) V c).arrAt_eq_of_cover 3
    (Cert.Mix.linRelu (R := 10000) (K := 256) (V c main_arg0) (V c main_arg4) (V c main_arg5))
    (fun t _ => flushed_eq V c t) cover

end Cert.KernelIdeal.Reg0

end
-- ==== Proof.Region1.lean ====
/-
  REGION 1 (the edge layer). Eighty grid points, point t holding rows 4000·t … 4000·t+3999 of the edge features; the weight and the bias are whole at every point. What the region leaves in its output array is the linear layer with relu of the three arrays it reads, as ONE function of them.
-/
import proofs.«400839_j63007170232987_1_alg».proof.Proof.Gen.KernelIdeal.Frame
import proofs.«400839_j63007170232987_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The matrix product of one block, entry by entry -/

/-- The product's left operand index on its row axis is the output's row. -/
theorem lhs_row (i : S4000x256.Idx) (q : dot_S4000x32_S32x256_S4000x256_1_0_0_1_n_n.contr.Idx) :
    (dot_S4000x32_S32x256_S4000x256_1_0_0_1_n_n.lhsIdx i q 0).val = (i 0).val := by
  unfold DotDims.lhsIdx
  rw [dif_neg (show ¬(0 : Fin S4000x32.rank) ∈ dot_S4000x32_S32x256_S4000x256_1_0_0_1_n_n.lhsBatch by decide), dif_pos (show (0 : Fin S4000x32.rank) ∈ dot_S4000x32_S32x256_S4000x256_1_0_0_1_n_n.lhsNonContracting by decide)]
  rfl
/-- On its contracted axis it is the contraction coordinate. -/
theorem lhs_contr (i : S4000x256.Idx) (q : dot_S4000x32_S32x256_S4000x256_1_0_0_1_n_n.contr.Idx) :
    (dot_S4000x32_S32x256_S4000x256_1_0_0_1_n_n.lhsIdx i q 1).val = (q ⟨0, by decide⟩).val :=
  dot_S4000x32_S32x256_S4000x256_1_0_0_1_n_n.lhsIdx_val_of_single rfl i q
/-- The right operand index on its contracted axis is the contraction coordinate. -/
theorem rhs_contr (i : S4000x256.Idx) (q : dot_S4000x32_S32x256_S4000x256_1_0_0_1_n_n.contr.Idx) :
    (dot_S4000x32_S32x256_S4000x256_1_0_0_1_n_n.rhsIdx i q 0).val = (q ⟨0, by decide⟩).val :=
  dot_S4000x32_S32x256_S4000x256_1_0_0_1_n_n.rhsIdx_val_of_single rfl i q
/-- On its column axis it is the output's column. -/
theorem rhs_col (i : S4000x256.Idx) (q : dot_S4000x32_S32x256_S4000x256_1_0_0_1_n_n.contr.Idx) :
    (dot_S4000x32_S32x256_S4000x256_1_0_0_1_n_n.rhsIdx i q 1).val = (i 1).val := by
  unfold DotDims.rhsIdx
  rw [dif_neg (show ¬(1 : Fin S32x256.rank) ∈ dot_S4000x32_S32x256_S4000x256_1_0_0_1_n_n.rhsBatch by decide), dif_pos (show (1 : Fin S32x256.rank) ∈ dot_S4000x32_S32x256_S4000x256_1_0_0_1_n_n.rhsNonContracting by decide)]
  rfl

/-- The block's matrix product into a zero accumulator, at row p and column q: the sum over k of x[p,k]·w[k,q]. -/
theorem mm_apply (x : FVec Ideal S4000x32 .bf16) (w : FVec Ideal S32x256 .bf16) (p : Fin 4000) (q : Fin 256) :
    matmul dot_S4000x32_S32x256_S4000x256_1_0_0_1_n_n none x w (constant (F := Ideal) S4000x256 .f32 0x00000000#32) (ix2 p q)
      = ∑ k : Fin 32, x (ix2 p k) * w (ix2 k q) := by
  refine (Ideal.matmul_constant_zero_apply dot_S4000x32_S32x256_S4000x256_1_0_0_1_n_n none x w (ix2 p q)).trans ?_
  rw [← Equiv.sum_comp (ValueIdx.contrEquiv1 dot_S4000x32_S32x256_S4000x256_1_0_0_1_n_n 32 rfl rfl).symm]
  refine Finset.sum_congr rfl fun k _ => ?_
  have hk := ValueIdx.contrEquiv1_symm_val dot_S4000x32_S32x256_S4000x256_1_0_0_1_n_n 32 rfl rfl k
  have el : dot_S4000x32_S32x256_S4000x256_1_0_0_1_n_n.lhsIdx (ix2 p q) ((ValueIdx.contrEquiv1 dot_S4000x32_S32x256_S4000x256_1_0_0_1_n_n 32 rfl rfl).symm k) = ix2 p k := funext fun a => Fin.ext (by
    match a with
    | ⟨0, _⟩ => exact lhs_row _ _
    | ⟨1, _⟩ => exact (lhs_contr _ _).trans hk)
  have er : dot_S4000x32_S32x256_S4000x256_1_0_0_1_n_n.rhsIdx (ix2 p q) ((ValueIdx.contrEquiv1 dot_S4000x32_S32x256_S4000x256_1_0_0_1_n_n 32 rfl rfl).symm k) = ix2 k q := funext fun a => Fin.ext (by
    match a with
    | ⟨0, _⟩ => exact (rhs_contr _ _).trans hk
    | ⟨1, _⟩ => exact rhs_col _ _)
  rw [el, er]

/-! ## What the body computes at one entry of its block -/

/-- The body's value at row p, column q of the block: the larger of zero and (the sum over k of x[p,k]·w[k,q]) plus b[q]. -/
theorem pay_apply (x : Vec Ideal S4000x32 .f32) (w : Vec Ideal S32x256 .f32) (b : Vec Ideal S256 .f32) (p : Fin 4000) (q : Fin 256) :
    k1_pay1 (F := Ideal) x w b (ix2 p q) = max ((∑ k : Fin 32, x (ix2 p k) * w (ix2 k q)) + b (ix1 q)) Cert.Mix.z32 := by
  unfold k1_pay1
  refine (maximumf_apply _ _ _).trans ?_
  refine congrArg₂ max ?_ rfl
  refine (addf_apply _ _ _).trans ?_
  refine congrArg₂ (· + ·) (mm_apply _ _ p q) ?_
  refine (broadcastTo_1b_ab_apply _ _ p q).trans ?_
  exact shapeCast_a_1a_apply b _ 0 q

/-- The layer at row r, column q, written with the coordinates themselves. -/
theorem linRelu_ix2 {R K : Nat} (x : FVec Ideal ⟨2, ![R, K]⟩ .f32) (w : FVec Ideal ⟨2, ![K, 256]⟩ .f32)
    (b : FVec Ideal ⟨1, ![256]⟩ .f32) (r : Fin R) (q : Fin 256) :
    Cert.Mix.linRelu x w b (ix2 r q) = max ((∑ k : Fin K, x (ix2 r k) * w (ix2 k q)) + b (ix1 q)) Cert.Mix.z32 := rfl

/-- If a block's row p holds the array's row r, and the block's weight and bias entries are the arrays', the body's value at
    (p, q) of the block is the layer's entry (r, q) of the arrays. -/
theorem entry_eq (x : Vec Ideal S4000x32 .f32) (w : Vec Ideal S32x256 .f32) (b : Vec Ideal S256 .f32)
    (X : FVec Ideal S320000x32 .f32) (W : FVec Ideal S32x256 .f32) (B : FVec Ideal S256 .f32)
    (p : Fin 4000) (q : Fin 256) (r : Fin 320000)
    (hx : ∀ k : Fin 32, x (ix2 p k) = X (ix2 r k)) (hw : ∀ k : Fin 32, w (ix2 k q) = W (ix2 k q))
    (hb : b (ix1 q) = B (ix1 q)) :
    k1_pay1 (F := Ideal) x w b (ix2 p q) = Cert.Mix.linRelu (R := 320000) (K := 32) X W B (ix2 r q) := by
  rw [pay_apply, linRelu_ix2, hb]
  simp only [hx, hw]

/-! ## Where each window's block sits, decided once over the eighty points -/

theorem hz2 : (![0, 0] : Fin 2 → Nat) = fun _ => 0 := funext fun a => by fin_cases a <;> rfl
theorem hz1 : (![0] : Fin 1 → Nat) = fun _ => 0 := funext fun a => by fin_cases a <;> rfl

/-- The row-blocked operand moves with the output on the row axis and stays at column block 0; the weight and the
    bias are always block 0; the output stays at column block 0. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) < 80
    ∧ win1_3.index t (1 : Fin 2) = 0 :=
  (by decide +kernel : ∀ t : Fin grid1.N, _)

/-- Every row block of the output is some point's. -/
theorem idx_onto : ∀ q0 : Fin 80, ∃ t : Fin cfg1.N, win1_3.index t = ![q0.val, 0] :=
  (by decide +kernel : ∀ q0 : Fin 80, ∃ t : Fin grid1.N, win1_3.index t = ![q0.val, 0])

/-! ## Each staged block, read as rows of its array -/

/-- Point t's block of the row-blocked operand is rows 4000·(its row block) … of the array. -/
theorem x_blk (c : Dev nD) (t : Fin cfg1.N) (p : Fin 4000) (k : Fin 32) (r : Fin 320000)
    (hr : r.val = win1_3.index t (0 : Fin 2) * 4000 + p.val) :
    (iblk1 (F := Ideal) V c 0 t : Vec Ideal S4000x32 .f32) (ix2 p k) = (V c main_arg1 : S320000x32.Idx → EReal) (ix2 r k) := by
  obtain ⟨e0, e1, -, -, -, -, -⟩ := idx_facts t
  unfold iblk1
  rw [View.read_apply]
  show V c main_arg1 _ = V c main_arg1 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 32 + 1 * k.val = k.val; rw [e1]; omega

/-- The weight's block is the whole weight at every point. -/
theorem w_blk (c : Dev nD) (t : Fin cfg1.N) (k : Fin 32) (q : Fin 256) :
    (iblk1 (F := Ideal) V c 1 t : Vec Ideal S32x256 .f32) (ix2 k q) = (V c main_arg6 : S32x256.Idx → EReal) (ix2 k q) := by
  obtain ⟨-, -, e2, e3, -, -, -⟩ := idx_facts t
  unfold iblk1
  rw [View.read_apply]
  show V c main_arg6 _ = V c main_arg6 _
  congr 1
  funext a
  apply Fin.ext
  match a with
  | ⟨0, _⟩ => show win1_1.index t (0 : Fin 2) * 32 + 1 * k.val = k.val; rw [e2]; omega
  | ⟨1, _⟩ => show win1_1.index t (1 : Fin 2) * 256 + 1 * q.val = q.val; rw [e3]; omega

/-- The bias's block is the whole bias at every point. -/
theorem b_blk (c : Dev nD) (t : Fin cfg1.N) (q : Fin 256) :
    (iblk1 (F := Ideal) V c 2 t : Vec Ideal S256 .f32) (ix1 q) = (V c main_arg7 : S256.Idx → EReal) (ix1 q) := by
  obtain ⟨-, -, -, -, e4, -, -⟩ := idx_facts t
  unfold iblk1
  rw [View.read_apply]
  show V c main_arg7 _ = V c main_arg7 _
  congr 1
  funext a
  apply Fin.ext
  match a with
  | ⟨0, _⟩ => show win1_2.index t (0 : Fin 1) * 256 + 1 * q.val = q.val; rw [e4]; omega

/-- So the body's value at entry (p, q) of point t's block is the layer's entry (r, q), r the array row under p. -/
theorem blk_entry (c : Dev nD) (t : Fin cfg1.N) (p : Fin 4000) (q : Fin 256) (r : Fin 320000)
    (hr : r.val = win1_3.index t (0 : Fin 2) * 4000 + p.val) :
    k1_pay1 (F := Ideal) (iblk1 V c 0 t) (iblk1 V c 1 t) (iblk1 V c 2 t) (ix2 p q)
      = Cert.Mix.linRelu (R := 320000) (K := 32) (V c main_arg1) (V c main_arg6) (V c main_arg7) (ix2 r q) :=
  entry_eq (iblk1 V c 0 t) (iblk1 V c 1 t) (iblk1 V c 2 t) (V c main_arg1) (V c main_arg6) (V c main_arg7) p q r
    (fun k => x_blk V c t p k r hr) (fun k => w_blk V c t k q) (b_blk V c t q)

/-! ## What a point writes back, and the whole array -/

/-- What point t writes back is its block of the layer of the arrays the region found. -/
theorem flushed_eq (c : Dev nD) (t : Fin cfg1.N) :
    (dat1 (F := Ideal) V c).flushed 3 t = ((cfg1.win 3).blk t).view.read (Elt Ideal)
      (Cert.Mix.linRelu (R := 320000) (K := 32) (V c main_arg1) (V c main_arg6) (V c main_arg7)) := by
  show (cfg1.win 3).cut (grid1.coords t) ((dat1 V c).after 3 t) = _
  rw [after1_3]
  unfold out1_3
  rw [View.canon_unit_zero hz2]
  simp only [View.ld_unit_zero (S := S4000x32) hz2, View.ld_unit_zero (S := S32x256) hz2, View.ld_unit_zero (S := S256) hz1]
  obtain ⟨-, -, -, -, -, e5, e6⟩ := idx_facts t
  funext j
  have hp : (j 0).val < 4000 := (j 0).isLt
  have hq : (j 1).val < 256 := (j 1).isLt
  have ej : (cfg1.win 3).xinj (grid1.coords t) j = ix2 (⟨(j 0).val, hp⟩ : Fin 4000) (⟨(j 1).val, hq⟩ : Fin 256) :=
    funext fun a => by match a with | ⟨0, _⟩ => rfl | ⟨1, _⟩ => rfl
  have ei : ((cfg1.win 3).blk t).view.emb j
      = ix2 (⟨win1_3.index t (0 : Fin 2) * 4000 + (j 0).val, by omega⟩ : Fin 320000) (⟨(j 1).val, hq⟩ : Fin 256) := by
    funext a
    apply Fin.ext
    match a with
    | ⟨0, _⟩ => show win1_3.index t (0 : Fin 2) * 4000 + 1 * (j 0).val = win1_3.index t (0 : Fin 2) * 4000 + (j 0).val; omega
    | ⟨1, _⟩ => show win1_3.index t (1 : Fin 2) * 256 + 1 * (j 1).val = (j 1).val; rw [e6]; omega
  show k1_pay1 (F := Ideal) (iblk1 V c 0 t) (iblk1 V c 1 t) (iblk1 V c 2 t) ((cfg1.win 3).xinj (grid1.coords t) j)
    = Cert.Mix.linRelu (R := 320000) (K := 32) (V c main_arg1) (V c main_arg6) (V c main_arg7) (((cfg1.win 3).blk t).view.emb j)
  rw [ej, ei]
  exact blk_entry V c t _ _ _ rfl

/-- An index of the output array is in point t's block iff each coordinate is in the block's range on its axis. -/
theorem mem_blk (t : Fin cfg1.N) (i : S320000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v1).slice (win1_3.rect t)).set ↔ _
  rw [View.set_slice_whole, Rect.mem_set_unit]
  exact Iff.rfl

/-- Every entry of the output array is in some point's block: row r is in the block of the point whose row block is r / 4000. -/
theorem cover (i : S320000x256.Idx) :
    ∃ t : Fin cfg1.N, (cfg1.win 3).flush t = true ∧ i ∈ ((cfg1.win 3).blk t).view.set := by
  have hi0 : (i 0).val < 320000 := (i 0).isLt
  have hi1 : (i 1).val < 256 := (i 1).isLt
  obtain ⟨t, ht⟩ := idx_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 256 ≤ (i 1).val ∧ (i 1).val < win1_3.index t (1 : Fin 2) * 256 + 256; omega

/-- The edge layer's output array after the region: relu(x·w + b) of the arrays the region found. -/
theorem arr (c : Dev nD) :
    (dat1 (F := Ideal) V c).arrAt 3 cfg1.N
      = Cert.Mix.linRelu (R := 320000) (K := 32) (V c main_arg1) (V c main_arg6) (V c main_arg7) :=
  (dat1 (F := Ideal) V c).arrAt_eq_of_cover 3
    (Cert.Mix.linRelu (R := 320000) (K := 32) (V c main_arg1) (V c main_arg6) (V c main_arg7))
    (fun t _ => flushed_eq V c t) cover

end Cert.KernelIdeal.Reg1

end
-- ==== Proof.Region2.lean ====
/-
  REGION 2 (the mix layer). 160 grid points, point t holding rows 2000·t … 2000·t+1999 of the three row-aligned arrays (the two gathered node-feature arrays and the edge layer's output); the three weight blocks and the bias are whole at every point. What the region leaves in its output array is the mix layer of the seven arrays it reads, as ONE function of them.
-/
import proofs.«400839_j63007170232987_1_alg».proof.Proof.Gen.KernelIdeal.Frame
import proofs.«400839_j63007170232987_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at one entry -/

/-- The left operand's index of a product entry: its row is the entry's row. -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column is the contraction coordinate. -/
theorem lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's index: its row is the contraction coordinate. -/
theorem rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- Its column is the entry's column. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block product into a zero accumulator, at entry (p, q): the sum over k of x[p,k]·w[k,q]. -/
theorem prod_at {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) := by
  refine (Ideal.matmul_constant_zero_apply dot_S2000x256_S256x256_S2000x256_1_0_0_1_n_n none x w (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- The body's result at entry (p, q) of a block: the three products' entries added left to right, the bias entry, the relu. -/
theorem pay_at (x0 x1 x2 : Vec Ideal S2000x256 .f32) (w0 w1 w2 : Vec Ideal S256x256 .f32) (b : Vec Ideal S256 .f32)
    (p : Fin 2000) (q : Fin 256) :
    k2_pay1 (F := Ideal) x0 x1 x2 w0 w1 w2 b (ix2 p q)
      = max ((((∑ k : Fin 256, x0 (ix2 p k) * w0 (ix2 k q)) + (∑ k : Fin 256, x1 (ix2 p k) * w1 (ix2 k q)))
          + (∑ k : Fin 256, x2 (ix2 p k) * w2 (ix2 k q))) + b (ix1 q)) Cert.Mix.z32 := by
  unfold k2_pay1
  simp only [shapeCast_self]
  rw [maximumf_apply, addf_apply, addf_apply, addf_apply, broadcast_apply]
  rw [prod_at, prod_at, prod_at]
  rw [broadcastTo_1b_ab_apply, shapeCast_a_1a_apply]
  rfl

/-- The body's result at entry (p, q) is the mix layer's entry at any array index whose row the three row-aligned
    blocks' row p is, and whose column the weights' and the bias's column q is. -/
theorem pay_is_mix (x0 x1 x2 : Vec Ideal S2000x256 .f32) (w0 w1 w2 : Vec Ideal S256x256 .f32) (b : Vec Ideal S256 .f32)
    (A0 A1 A2 : FVec Ideal S320000x256 .f32) (W0 W1 W2 : FVec Ideal S256x256 .f32) (B : FVec Ideal S256 .f32)
    (p : Fin 2000) (q : Fin 256) (i : S320000x256.Idx)
    (h0 : ∀ k : Fin 256, x0 (ix2 p k) = A0 (ix2 (⟨(i 0).val, idx2_lt0 i⟩ : Fin 320000) k))
    (h1 : ∀ k : Fin 256, x1 (ix2 p k) = A1 (ix2 (⟨(i 0).val, idx2_lt0 i⟩ : Fin 320000) k))
    (h2 : ∀ k : Fin 256, x2 (ix2 p k) = A2 (ix2 (⟨(i 0).val, idx2_lt0 i⟩ : Fin 320000) k))
    (h3 : ∀ k : Fin 256, w0 (ix2 k q) = W0 (ix2 k (⟨(i 1).val, idx2_lt1 i⟩ : Fin 256)))
    (h4 : ∀ k : Fin 256, w1 (ix2 k q) = W1 (ix2 k (⟨(i 1).val, idx2_lt1 i⟩ : Fin 256)))
    (h5 : ∀ k : Fin 256, w2 (ix2 k q) = W2 (ix2 k (⟨(i 1).val, idx2_lt1 i⟩ : Fin 256)))
    (h6 : b (ix1 q) = B (ix1 (⟨(i 1).val, idx2_lt1 i⟩ : Fin 256))) :
    k2_pay1 (F := Ideal) x0 x1 x2 w0 w1 w2 b (ix2 p q) = Cert.Mix.mixRelu (E := 320000) A0 A1 A2 W0 W1 W2 B i := by
  rw [pay_at]
  unfold Cert.Mix.mixRelu
  simp only [h0, h1, h2, h3, h4, h5, h6]

/-! ## The windows' index maps, over the grid -/

theorem hz : (![0, 0] : Fin 2 → Nat) = fun _ => 0 := funext fun a => by fin_cases a <;> rfl
theorem hz1 : (![0] : Fin 1 → Nat) = fun _ => 0 := funext fun a => by fin_cases a <;> rfl

/-- Point t's blocks: the three row-aligned inputs and the output sit at row block t, column block 0; the weights and
    the bias at block 0. -/
theorem idx_facts : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0 :=
  (by decide +kernel : ∀ t : Fin grid2.N, _)

/-! ## What a point writes back -/

/-- The body's result on point t's blocks, entry by entry, is the mix layer of the whole arrays at the entry's place
    in the output array: row p of a row-aligned block is row 2000·t + p of its array, and the weights and the bias are whole. -/
theorem body_at (c : Dev nD) (t : Fin cfg2.N) (j : S2000x256.Idx) :
    k2_pay1 (F := Ideal) (iblk2 V c 0 t) (iblk2 V c 1 t) (iblk2 V c 2 t) (iblk2 V c 3 t) (iblk2 V c 4 t) (iblk2 V c 5 t) (iblk2 V c 6 t) j
      = Cert.Mix.mixRelu (E := 320000) (V c main_v2) (V c main_v3) (V c main_v1) (V c main_v4) (V c main_v5) (V c main_v6) (V c main_arg9)
          (((cfg2.win 7).blk t).view.emb j) := by
  obtain ⟨e70, e71, e00, e01, e10, e11, e20, e21, e30, e31, e40, e41, e50, e51, e60⟩ := idx_facts t
  obtain ⟨p, q, rfl⟩ : ∃ (p : Fin 2000) (q : Fin 256), j = ix2 p q := ⟨j 0, j 1, eq_ix2 j⟩
  refine pay_is_mix _ _ _ _ _ _ _ _ _ _ _ _ _ _ p q _ (fun k => ?_) (fun k => ?_) (fun k => ?_) (fun k => ?_) (fun k => ?_) (fun k => ?_) ?_
  · show V c main_v2 (((cfg2.win 0).blk t).view.emb (ix2 p k)) = V c main_v2 _
    refine congrArg _ (funext fun a => Fin.ext ?_)
    match a with
    | ⟨0, _⟩ => show win2_0.index t (0 : Fin 2) * 2000 + 1 * p.val = win2_7.index t (0 : Fin 2) * 2000 + 1 * p.val; omega
    | ⟨1, _⟩ => show win2_0.index t (1 : Fin 2) * 256 + 1 * k.val = k.val; omega
  · show V c main_v3 (((cfg2.win 1).blk t).view.emb (ix2 p k)) = V c main_v3 _
    refine congrArg _ (funext fun a => Fin.ext ?_)
    match a with
    | ⟨0, _⟩ => show win2_1.index t (0 : Fin 2) * 2000 + 1 * p.val = win2_7.index t (0 : Fin 2) * 2000 + 1 * p.val; omega
    | ⟨1, _⟩ => show win2_1.index t (1 : Fin 2) * 256 + 1 * k.val = k.val; omega
  · show V c main_v1 (((cfg2.win 2).blk t).view.emb (ix2 p k)) = V c main_v1 _
    refine congrArg _ (funext fun a => Fin.ext ?_)
    match a with
    | ⟨0, _⟩ => show win2_2.index t (0 : Fin 2) * 2000 + 1 * p.val = win2_7.index t (0 : Fin 2) * 2000 + 1 * p.val; omega
    | ⟨1, _⟩ => show win2_2.index t (1 : Fin 2) * 256 + 1 * k.val = k.val; omega
  · show V c main_v4 (((cfg2.win 3).blk t).view.emb (ix2 k q)) = V c main_v4 _
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * q.val = win2_7.index t (1 : Fin 2) * 256 + 1 * q.val; omega
  · show V c main_v5 (((cfg2.win 4).blk t).view.emb (ix2 k q)) = V c main_v5 _
    refine congrArg _ (funext fun a => Fin.ext ?_)
    match a with
    | ⟨0, _⟩ => show win2_4.index t (0 : Fin 2) * 256 + 1 * k.val = k.val; omega
    | ⟨1, _⟩ => show win2_4.index t (1 : Fin 2) * 256 + 1 * q.val = win2_7.index t (1 : Fin 2) * 256 + 1 * q.val; omega
  · show V c main_v6 (((cfg2.win 5).blk t).view.emb (ix2 k q)) = V c main_v6 _
    refine congrArg _ (funext fun a => Fin.ext ?_)
    match a with
    | ⟨0, _⟩ => show win2_5.index t (0 : Fin 2) * 256 + 1 * k.val = k.val; omega
    | ⟨1, _⟩ => show win2_5.index t (1 : Fin 2) * 256 + 1 * q.val = win2_7.index t (1 : Fin 2) * 256 + 1 * q.val; omega
  · show V c main_arg9 (((cfg2.win 6).blk t).view.emb (ix1 q)) = V c main_arg9 _
    refine congrArg _ (funext fun a => Fin.ext ?_)
    match a with
    | ⟨0, _⟩ => show win2_6.index t (0 : Fin 1) * 256 + 1 * q.val = win2_7.index t (1 : Fin 2) * 256 + 1 * q.val; omega

/-- What point t writes back is block t of the mix layer of the arrays the region found. -/
theorem flushed_eq (c : Dev nD) (t : Fin cfg2.N) :
    (dat2 (F := Ideal) V c).flushed 7 t = ((cfg2.win 7).blk t).view.read (Elt Ideal)
      (Cert.Mix.mixRelu (E := 320000) (V c main_v2) (V c main_v3) (V c main_v1) (V c main_v4) (V c main_v5) (V c main_v6) (V c main_arg9)) := by
  show (cfg2.win 7).cut (grid2.coords t) ((dat2 V c).after 7 t) = _
  rw [after2_7]
  unfold out2_7
  rw [View.canon_unit_zero hz]
  simp only [View.ld_unit_zero (S := S2000x256) hz, View.ld_unit_zero (S := S256x256) hz, View.ld_unit_zero (S := S256) hz1]
  funext j
  exact body_at V c t j

/-! ## The blocks tile the output array -/

/-- An index of the output array is in point t's block iff each coordinate is in the block's range on its axis. -/
theorem mem_blk (t : Fin cfg2.N) (i : S320000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v7).slice (win2_7.rect t)).set ↔ _
  rw [View.set_slice_whole, Rect.mem_set_unit]
  exact Iff.rfl

/-- Row r of the output array is in the block of point r / 2000: the 160 blocks of 2000 rows cover the 320000 rows, all 256 columns. -/
theorem covered (i : S320000x256.Idx) :
    ∃ t : Fin cfg2.N, (cfg2.win 7).flush t = true ∧ i ∈ ((cfg2.win 7).blk t).view.set := by
  have hN : cfg2.N = 160 := N_2
  have hi0 : (i 0).val < 320000 := (i 0).isLt
  have hi1 : (i 1).val < 256 := (i 1).isLt
  obtain ⟨t, ht⟩ : ∃ t : Fin cfg2.N, t.val = (i 0).val / 2000 := ⟨⟨(i 0).val / 2000, by rw [hN]; omega⟩, rfl⟩
  obtain ⟨e70, e71, -⟩ := idx_facts t
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 256 ≤ (i 1).val ∧ (i 1).val < win2_7.index t (1 : Fin 2) * 256 + 256; omega

/-- The mix layer's output array after the region: relu(a·w1 + b·w2 + c·w3 + bias) of the arrays the region found. -/
theorem arr (c : Dev nD) :
    (dat2 (F := Ideal) V c).arrAt 7 cfg2.N
      = Cert.Mix.mixRelu (E := 320000) (V c main_v2) (V c main_v3) (V c main_v1) (V c main_v4) (V c main_v5) (V c main_v6) (V c main_arg9) :=
  (dat2 (F := Ideal) V c).arrAt_eq_of_cover 7 _ (fun t _ => flushed_eq V c t) covered

end Cert.KernelIdeal.Reg2

end
-- ==== Proof.KernelValue.lean ====
/-
  THE KERNEL PROGRAM'S RESULT as one function of the launch memory, at the ideal values.

  Walking the run's boundaries back from the result buffer: the tail reads the mix layer's output array and the second
  index vector; the mix layer (region 2) reads the two takes, the edge layer's output, the three weight blocks and the
  bias; the takes read the node layer's output (region 0) and an index vector; the edge layer (region 1) and the node
  layer read arguments only. No region and no host operation writes an argument, so every argument is read as the launch
  memory holds it.
-/
import proofs.«400839_j63007170232987_1_alg».proof.Proof.HostVal
import proofs.«400839_j63007170232987_1_alg».proof.Proof.Region0
import proofs.«400839_j63007170232987_1_alg».proof.Proof.Region1
import proofs.«400839_j63007170232987_1_alg».proof.Proof.Region2

set_option maxRecDepth 16384

noncomputable section

namespace Cert.KernelIdeal.KVal

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg)

/-- The node features: the node layer of the arguments. -/
def nf (c : Dev nD) : FVec Ideal S10000x256 .f32 :=
  Cert.Mix.linRelu (R := 10000) (K := 256) (m ((c : Thread nD τ).loc main_arg0)) (m ((c : Thread nD τ).loc main_arg4))
    (m ((c : Thread nD τ).loc main_arg5))

/-- The edge features: the edge layer of the arguments. -/
def ef (c : Dev nD) : FVec Ideal S320000x256 .f32 :=
  Cert.Mix.linRelu (R := 320000) (K := 32) (m ((c : Thread nD τ).loc main_arg1)) (m ((c : Thread nD τ).loc main_arg6))
    (m ((c : Thread nD τ).loc main_arg7))

/-- The mix layer's output: the two takes of the node features, the edge features, the weight's three row slices, the bias. -/
def feat (c : Dev nD) : FVec Ideal S320000x256 .f32 :=
  Cert.Mix.mixRelu (E := 320000)
    (takeRows (F := Ideal) (nf m c) (m ((c : Thread nD τ).loc main_arg2)))
    (takeRows (F := Ideal) (nf m c) (m ((c : Thread nD τ).loc main_arg3)))
    (ef m c)
    (extractStridedSlice S256x256 ![0, 0] (m ((c : Thread nD τ).loc main_arg8)) slices_S768x256_S256x256_0_0)
    (extractStridedSlice S256x256 ![256, 0] (m ((c : Thread nD τ).loc main_arg8)) slices_S768x256_S256x256_256_0)
    (extractStridedSlice S256x256 ![512, 0] (m ((c : Thread nD τ).loc main_arg8)) slices_S768x256_S256x256_512_0)
    (m ((c : Thread nD τ).loc main_arg9))

/-- The result: the segment mean of the mix layer's rows by the second index vector. -/
def out (c : Dev nD) : FVec Ideal S10000x256 .f32 :=
  tailRows (F := Ideal) (feat m c) (m ((c : Thread nD τ).loc main_arg3))

/-- At the second region's exit the node layer's output array holds the node features. -/
theorem W2_v0 (c : Dev nD) : W2 m ρ c (Proc.devRef .tc main_v0) = nf m c := by
  rw [W2_of_ne m ρ c main_v0 (by decide)]
  exact (W1_arr m ρ c 3).trans (Cert.KernelIdeal.Reg0.arr (V0 m ρ) c)

/-- At the second region's exit the edge layer's output array holds the edge features. -/
theorem W2_v1 (c : Dev nD) : W2 m ρ c (Proc.devRef .tc main_v1) = ef m c := by
  refine (W2_arr m ρ c 3).trans ((Cert.KernelIdeal.Reg1.arr (V1 m ρ) c).trans ?_)
  unfold ef
  rw [show V1 m ρ c main_arg1 = m ((c : Thread nD τ).loc main_arg1) from W1_of_ne m ρ c main_arg1 (by decide),
    show V1 m ρ c main_arg6 = m ((c : Thread nD τ).loc main_arg6) from W1_of_ne m ρ c main_arg6 (by decide),
    show V1 m ρ c main_arg7 = m ((c : Thread nD τ).loc main_arg7) from W1_of_ne m ρ c main_arg7 (by decide)]

theorem W2_a2 (c : Dev nD) : W2 m ρ c (Proc.devRef .tc main_arg2) = m ((c : Thread nD τ).loc main_arg2) :=
  W2_arg m ρ c main_arg2 (by decide) (by decide)
theorem W2_a3 (c : Dev nD) : W2 m ρ c (Proc.devRef .tc main_arg3) = m ((c : Thread nD τ).loc main_arg3) :=
  W2_arg m ρ c main_arg3 (by decide) (by decide)
theorem W2_a8 (c : Dev nD) : W2 m ρ c (Proc.devRef .tc main_arg8) = m ((c : Thread nD τ).loc main_arg8) :=
  W2_arg m ρ c main_arg8 (by decide) (by decide)
theorem W2_a9 (c : Dev nD) : W2 m ρ c (Proc.devRef .tc main_arg9) = m ((c : Thread nD τ).loc main_arg9) :=
  W2_arg m ρ c main_arg9 (by decide) (by decide)

/-- The mix layer's seven input arrays as the third region finds them. -/
theorem V5_v2 (c : Dev nD) : V5 m ρ c main_v2 = takeRows (F := Ideal) (nf m c) (m ((c : Thread nD τ).loc main_arg2)) := by
  show W5 m ρ c (Proc.devRef .tc main_v2) = _
  rw [W5_keep_v2, W4_keep_v2, W3_v2, W2_v0, W2_a2]
theorem V5_v3 (c : Dev nD) : V5 m ρ c main_v3 = takeRows (F := Ideal) (nf m c) (m ((c : Thread nD τ).loc main_arg3)) := by
  show W5 m ρ c (Proc.devRef .tc main_v3) = _
  rw [W5_keep_v3, W4_v3, W3_keep_v0, W3_keep_arg3, W2_v0, W2_a3]
theorem V5_v1 (c : Dev nD) : V5 m ρ c main_v1 = ef m c := by
  show W5 m ρ c (Proc.devRef .tc main_v1) = _
  rw [W5_keep_v1, W4_keep_v1, W3_keep_v1, W2_v1]
theorem W4_a8 (c : Dev nD) : W4 m ρ c (Proc.devRef .tc main_arg8) = m ((c : Thread nD τ).loc main_arg8) := by
  rw [W4_keep_arg8, W3_keep_arg8, W2_a8]
theorem V5_v4 (c : Dev nD) : V5 m ρ c main_v4
    = extractStridedSlice S256x256 ![0, 0] (m ((c : Thread nD τ).loc main_arg8)) slices_S768x256_S256x256_0_0 := by
  show W5 m ρ c (Proc.devRef .tc main_v4) = _
  rw [W5_v4, W4_a8]
theorem V5_v5 (c : Dev nD) : V5 m ρ c main_v5
    = extractStridedSlice S256x256 ![256, 0] (m ((c : Thread nD τ).loc main_arg8)) slices_S768x256_S256x256_256_0 := by
  show W5 m ρ c (Proc.devRef .tc main_v5) = _
  rw [W5_v5, W4_a8]
theorem V5_v6 (c : Dev nD) : V5 m ρ c main_v6
    = extractStridedSlice S256x256 ![512, 0] (m ((c : Thread nD τ).loc main_arg8)) slices_S768x256_S256x256_512_0 := by
  show W5 m ρ c (Proc.devRef .tc main_v6) = _
  rw [W5_v6, W4_a8]
theorem V5_a9 (c : Dev nD) : V5 m ρ c main_arg9 = m ((c : Thread nD τ).loc main_arg9) := by
  show W5 m ρ c (Proc.devRef .tc main_arg9) = _
  rw [W5_keep_arg9, W4_keep_arg9, W3_keep_arg9, W2_a9]

/-- At the third region's exit its output array holds the mix layer's output. -/
theorem W6_v7 (c : Dev nD) : W6 m ρ c (Proc.devRef .tc main_v7) = feat m c := by
  refine (W6_arr m ρ c 7).trans ((Cert.KernelIdeal.Reg2.arr (V5 m ρ) c).trans ?_)
  unfold feat
  rw [V5_v2, V5_v3, V5_v1, V5_v4, V5_v5, V5_v6, V5_a9]

theorem W6_a3 (c : Dev nD) : W6 m ρ c (Proc.devRef .tc main_arg3) = m ((c : Thread nD τ).loc main_arg3) := by
  rw [W6_of_ne m ρ c main_arg3 (by decide), W5_keep_arg3, W4_keep_arg3, W3_keep_arg3, W2_a3]

/-- THE RESULT BUFFER at the end of the run holds `out` of the launch memory. -/
theorem W8_v23_eq (c : Dev nD) : W8 m ρ c (Proc.devRef .tc main_v23) = out m c := by
  rw [W8_v23, W6_v7, W6_a3]
  rfl

end Cert.KernelIdeal.KVal

end
-- ==== Proof.TakeRows.lean ====
/-
  THE TAKE AT A ROW WHOSE INDEX IS IN RANGE reads the gathered row. The take keeps the gathered row where the index —
  counted from the end when negative, which an index in 0 … 9999 is not — lies in 0 … 9999, and the fill word elsewhere; the
  test is an `and` over the one column of the index column, so at row r it is the test of row r's one entry.
-/
import proofs.«400839_j63007170232987_1_alg».proof.Proof.HostVal
import Idealize.ShloMosaic.Lib.ReduceAll
import Idealize.ShloMosaic.Lib.ValueIdx
import Idealize.ShloMosaic.Lib.Pipeline.Value

noncomputable section

namespace Cert.KernelIdeal.HostVal

open Idealize.ShloMosaic Idealize.ShloMosaic.ValueIdx
open Cert.KernelIdeal Cert.KernelIdeal.Gen

/-! ## A reduce by `and`, read forwards -/

/-- A left fold by `and` from 1 over a list whose elements all hold 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    show l.foldl (fun r n => IntOp.andi r (f n)) (IntOp.andi 1#1 (f a)) = 1#1
    rw [h a (List.mem_cons.2 (Or.inl rfl)), show IntOp.andi 1#1 1#1 = 1#1 by decide]
    exact foldl_andi_one f l fun n hn => h n (List.mem_cons.2 (Or.inr hn))

/-- A reduce by `and` from an initial 1 is 1 at j when every operand index that reduces into j holds 1. -/
theorem reduce_andi_one_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  exact foldl_andi_one x _ fun n hn => hx n (of_decide_eq_true (List.mem_filter.1 hn).2)

/-! ## The index column at a row whose index is not negative -/

/-- At any entry of row r the index column holds the index itself when that index is not negative. -/
theorem wrapCol_apply_of_nonneg (idx : IVec S320000 32) (i : S320000x1.Idx) (r : Fin 320000) (hi : (i 0).val = r.val)
    (h0 : 0 ≤ (idx (ix1 r)).toInt) : wrapCol idx i = idx (ix1 r) := by
  unfold wrapCol
  refine (broadcastInDim_apply _ bcast_S320000_S320000x1_0 _ i (ix1 r) (fun a => match a with
    | ⟨0, _⟩ => by show r.val = if (320000 : Nat) = 1 then 0 else (i 0).val; rw [if_neg (by decide)]; exact hi.symm)).trans ?_
  show Scalar.select (IntOp.cmpi .slt (idx (ix1 r)) 0#32) (IntOp.addi (idx (ix1 r)) 10000#32) (idx (ix1 r)) = idx (ix1 r)
  have hz : (0#32 : BitVec 32).toInt = 0 := by decide
  have hn : ¬IntOp.cmpi .slt (idx (ix1 r)) 0#32 = 1#1 := fun e => by
    have := IntOp.cmpi_slt.1 e; rw [hz] at this; omega
  rw [eq_zero_of_ne_one hn]
  exact select_zero _ _

/-! ## The range test at a row whose index is in range -/

/-- Row r passes the test: its one entry is its index, which is at least 0 and at most 9999. -/
theorem rowOk_wrapCol_eq_one (idx : IVec S320000 32) (r : Fin 320000)
    (h0 : 0 ≤ (idx (ix1 r)).toInt) (h1 : (idx (ix1 r)).toInt < 10000) : rowOk (wrapCol idx) (ix1 r) = 1#1 := by
  unfold rowOk
  refine reduce_andi_one_of_forall _ _ reducesTo_S320000x1_S320000_d1 h_S_ (ix1 r) rfl fun i hi => ?_
  have hv : (reducesTo_S320000x1_S320000_d1.drop i 0 : Nat) = i 0 := Shape.ReducesTo.drop_apply_val reducesTo_S320000x1_S320000_d1 i 0
  have h2 : (reducesTo_S320000x1_S320000_d1.drop i 0 : Nat) = r.val := congrArg (fun z : S320000.Idx => (z 0 : Nat)) hi
  have hc := wrapCol_apply_of_nonneg idx i r (hv.symm.trans h2) h0
  show IntOp.andi (IntOp.cmpi .sge (wrapCol idx i) 0#32) (IntOp.cmpi .sle (wrapCol idx i) 9999#32) = 1#1
  rw [hc]
  have hz : (0#32 : BitVec 32).toInt = 0 := by decide
  have hm : (9999#32 : BitVec 32).toInt = 9999 := by decide
  exact IntOp.andi_eq_one.2 ⟨IntOp.cmpi_sge.2 (by rw [hz]; exact h0), IntOp.cmpi_sle.2 (by rw [hm]; omega)⟩

/-- Where row r's index, read signed, is in 0 … 9999, the take's row r is the gathered row r. -/
theorem takeRows_apply_of_in_range (nf : FVec Ideal S10000x256 .f32) (idx : IVec S320000 32) (r : Fin 320000) (k : Fin 256)
    (h0 : 0 ≤ (idx (ix1 r)).toInt) (h1 : (idx (ix1 r)).toInt < 10000) :
    takeRows (F := Ideal) nf idx (ix2 r k)
      = Host.gather gather_S10000x256_S320000x1_S320000x256_1_0_n_n_0_1_1256 nf (wrapCol idx) (ix2 r k) := by
  unfold takeRows
  refine (select_apply _ _ _ _).trans ?_
  have hm : broadcastInDim S320000x256 ![0] bcast_S320000_S320000x256_0 (rowOk (wrapCol idx)) (ix2 r k) = 1#1 :=
    (broadcastInDim_apply _ bcast_S320000_S320000x256_0 _ (ix2 r k) (ix1 r) (fun a => match a with
      | ⟨0, _⟩ => by show r.val = if (320000 : Nat) = 1 then 0 else r.val; rw [if_neg (by decide)])).trans
      (rowOk_wrapCol_eq_one idx r h0 h1)
  rw [hm]
  exact select_one _ _

end Cert.KernelIdeal.HostVal

end
-- ==== Proof.RefValue.lean ====
/-
  The reference program's three layers as the array functions of Proof/Spec.lean, at the ideal values.

  The node layer and the edge layer are a host dot_general, a bias laid over the rows, and a maximum with zero: the
  linear layer with relu. The mix layer is ONE dot_general of the three row-aligned arrays joined side by side
  ([320000, 768]) against the whole [768, 256] weight: a sum over 768 terms, which splits into the three sums over 256
  of the mix layer, each against its own row block of the weight (addition of extended reals is associative and
  commutative: no finiteness is used).
-/
import proofs.«400839_j63007170232987_1_alg».proof.Proof.RefRead
import proofs.«400839_j63007170232987_1_alg».proof.Proof.Spec
import Idealize.ShloMosaic.Lib.Pipeline.Value
import Idealize.ShloMosaic.Lib.ValueIdx
import Idealize.ShloMosaic.PureOps.Ideal.Laws

noncomputable section

namespace Cert.ReferenceIdeal.RefVal

open Idealize.ShloMosaic Idealize.ShloMosaic.ValueIdx
open Cert.ReferenceIdeal Cert.ReferenceIdeal.Gen Cert.ReferenceIdeal.ReadP

/-! ## The node layer -/

/-- The left operand of the node product is read at row `i 0`, column `k`. -/
theorem node_lhs (i : S10000x256.Idx) (k : Fin 256) :
    lidx_main_v5 i k = ix2 (⟨(i 0).val, idx2_lt0 i⟩ : Fin 10000) k :=
  funext fun a => Fin.ext (by match a with | ⟨0, _⟩ => rfl | ⟨1, _⟩ => rfl)

/-- The right operand of the node product is read at row `k`, column `i 1`. -/
theorem node_rhs (i : S10000x256.Idx) (k : Fin 256) :
    ridx_main_v5 i k = ix2 k (⟨(i 1).val, idx2_lt1 i⟩ : Fin 256) :=
  funext fun a => Fin.ext (by match a with | ⟨0, _⟩ => rfl | ⟨1, _⟩ => rfl)

/-- The node bias, laid over the rows, is read at column `i 1`. -/
theorem node_bias (i : S10000x256.Idx) :
    idx_main_v6 (idx_main_v7 i) = ix1 (⟨(i 1).val, idx2_lt1 i⟩ : Fin 256) :=
  funext fun a => Fin.ext (by match a with | ⟨0, _⟩ => rfl)

/-- The reference's node features are the linear layer with relu of the node inputs. -/
theorem nf_eq (x0 : FVec Ideal S10000x256 .f32) (x4 : FVec Ideal S256x256 .f32) (x5 : FVec Ideal S256 .f32) :
    val_main_v9 (F := Ideal) x0 x4 x5 = Cert.Mix.linRelu (R := 10000) (K := 256) x0 x4 x5 := by
  funext i
  rw [val_main_v9_apply, val_main_v8_apply, val_main_v5_apply, val_main_v7_apply, val_main_v6_apply,
    val_main_call1_v0_apply, val_main_call1_cst_apply]
  unfold Cert.Mix.linRelu
  simp only [node_lhs, node_rhs, node_bias, Ideal.maximumf_def, Ideal.addf_def, Ideal.ofBits_def]

/-! ## The edge layer -/

/-- The left operand of the edge product is read at row `i 0`, column `k`. -/
theorem edge_lhs (i : S320000x256.Idx) (k : Fin 32) :
    lidx_main_v0 i k = ix2 (⟨(i 0).val, idx2_lt0 i⟩ : Fin 320000) k :=
  funext fun a => Fin.ext (by match a with | ⟨0, _⟩ => rfl | ⟨1, _⟩ => rfl)

/-- The right operand of the edge product is read at row `k`, column `i 1`. -/
theorem edge_rhs (i : S320000x256.Idx) (k : Fin 32) :
    ridx_main_v0 i k = ix2 k (⟨(i 1).val, idx2_lt1 i⟩ : Fin 256) :=
  funext fun a => Fin.ext (by match a with | ⟨0, _⟩ => rfl | ⟨1, _⟩ => rfl)

/-- The edge bias, laid over the rows, is read at column `i 1`. -/
theorem edge_bias (i : S320000x256.Idx) :
    idx_main_v1 (idx_main_v2 i) = ix1 (⟨(i 1).val, idx2_lt1 i⟩ : Fin 256) :=
  funext fun a => Fin.ext (by match a with | ⟨0, _⟩ => rfl)

/-- The reference's edge features are the linear layer with relu of the edge inputs. -/
theorem ef_eq (x1 : FVec Ideal S320000x32 .f32) (x6 : FVec Ideal S32x256 .f32) (x7 : FVec Ideal S256 .f32) :
    val_main_v4 (F := Ideal) x1 x6 x7 = Cert.Mix.linRelu (R := 320000) (K := 32) x1 x6 x7 := by
  funext i
  rw [val_main_v4_apply, val_main_v3_apply, val_main_v0_apply, val_main_v2_apply, val_main_v1_apply,
    val_main_call0_v0_apply, val_main_call0_cst_apply]
  unfold Cert.Mix.linRelu
  simp only [edge_lhs, edge_rhs, edge_bias, Ideal.maximumf_def, Ideal.addf_def, Ideal.ofBits_def]

/-! ## The mix layer -/

/-- A sum over 768 terms is the sum of its three consecutive runs of 256, added left to right. -/
theorem sum_three_runs {M : Type*} [AddCommMonoid M] (f : Fin 768 → M) :
    ∑ k, f k = ((∑ k : Fin 256, f ⟨k.val, by have := k.isLt; omega⟩)
      + (∑ k : Fin 256, f ⟨256 + k.val, by have := k.isLt; omega⟩))
      + (∑ k : Fin 256, f ⟨512 + k.val, by have := k.isLt; omega⟩) := by
  have h := Fin.sum_univ_add (a := 256 + 256) (b := 256) f
  rw [Fin.sum_univ_add (a := 256) (b := 256)] at h
  exact h

/-- The mix product at an index: the sum over the 768 joined columns. -/
theorem mix_dot_apply (y : FVec Ideal S320000x768 .f32) (x8 : FVec Ideal S768x256 .f32) (i : S320000x256.Idx) :
    Host.dotGeneral dot_S320000x768_S768x256_S320000x256_1_0_0_1_n_n none y x8 i
      = ∑ k : Fin 768, y (lidx_main_v25 i k) * x8 (ridx_main_v25 i k) := by
  simp only [Host.dotGeneral]
  rw [Ideal.dotGeneral_apply, ← Equiv.sum_comp (ValueIdx.contrEquiv1 dot_S320000x768_S768x256_S320000x256_1_0_0_1_n_n 768 rfl rfl).symm]
  refine Finset.sum_congr rfl fun k _ => ?_
  have hk := ValueIdx.contrEquiv1_symm_val dot_S320000x768_S768x256_S320000x256_1_0_0_1_n_n 768 rfl rfl k
  have el : dot_S320000x768_S768x256_S320000x256_1_0_0_1_n_n.lhsIdx i ((ValueIdx.contrEquiv1 dot_S320000x768_S768x256_S320000x256_1_0_0_1_n_n 768 rfl rfl).symm k) = lidx_main_v25 i k := funext fun a => Fin.ext (by
    match a with
    | ⟨0, _⟩ => exact lhs_main_v25_0 _ _
    | ⟨1, _⟩ => exact (lhs_main_v25_1 _ _).trans hk)
  have er : dot_S320000x768_S768x256_S320000x256_1_0_0_1_n_n.rhsIdx i ((ValueIdx.contrEquiv1 dot_S320000x768_S768x256_S320000x256_1_0_0_1_n_n 768 rfl rfl).symm k) = ridx_main_v25 i k := funext fun a => Fin.ext (by
    match a with
    | ⟨0, _⟩ => exact (rhs_main_v25_0 _ _).trans hk
    | ⟨1, _⟩ => exact rhs_main_v25_1 _ _)
  rw [el, er]

/-! ### The three arrays joined side by side, read at a column -/

/-- Columns 0 … 255 of the joined array are the first array. -/
theorem cat_run0 (g1 g2 ef : FVec Ideal S320000x256 .f32) (i : S320000x256.Idx) (k : Fin 256) :
    concatenate S320000x768 1 [⟨S320000x256, g1⟩, ⟨S320000x256, g2⟩, ⟨S320000x256, ef⟩]
        concatenates_S320000x256_S320000x256_S320000x256_S320000x768_d1
        (lidx_main_v25 i ⟨k.val, by have := k.isLt; omega⟩)
      = g1 (ix2 (⟨(i 0).val, idx2_lt0 i⟩ : Fin 320000) k) :=
  concatenate_apply_piece (1 : Fin S320000x768.rank) _ _ _ 0 (by show (0 : Nat) < 3; omega) S320000x256 g1 rfl rfl 0 rfl
    (ix2 (⟨(i 0).val, idx2_lt0 i⟩ : Fin 320000) k)
    (fun b hb => by match b with | ⟨0, _⟩ => rfl | ⟨1, _⟩ => exact absurd (Fin.ext rfl) hb)
    (by show 0 + k.val = k.val; omega)

/-- Columns 256 … 511 of the joined array are the second array. -/
theorem cat_run1 (g1 g2 ef : FVec Ideal S320000x256 .f32) (i : S320000x256.Idx) (k : Fin 256) :
    concatenate S320000x768 1 [⟨S320000x256, g1⟩, ⟨S320000x256, g2⟩, ⟨S320000x256, ef⟩]
        concatenates_S320000x256_S320000x256_S320000x256_S320000x768_d1
        (lidx_main_v25 i ⟨256 + k.val, by have := k.isLt; omega⟩)
      = g2 (ix2 (⟨(i 0).val, idx2_lt0 i⟩ : Fin 320000) k) :=
  concatenate_apply_piece (1 : Fin S320000x768.rank) _ _ _ 1 (by show (1 : Nat) < 3; omega) S320000x256 g2 rfl rfl 256 rfl
    (ix2 (⟨(i 0).val, idx2_lt0 i⟩ : Fin 320000) k)
    (fun b hb => by match b with | ⟨0, _⟩ => rfl | ⟨1, _⟩ => exact absurd (Fin.ext rfl) hb)
    rfl

/-- Columns 512 … 767 of the joined array are the third array. -/
theorem cat_run2 (g1 g2 ef : FVec Ideal S320000x256 .f32) (i : S320000x256.Idx) (k : Fin 256) :
    concatenate S320000x768 1 [⟨S320000x256, g1⟩, ⟨S320000x256, g2⟩, ⟨S320000x256, ef⟩]
        concatenates_S320000x256_S320000x256_S320000x256_S320000x768_d1
        (lidx_main_v25 i ⟨512 + k.val, by have := k.isLt; omega⟩)
      = ef (ix2 (⟨(i 0).val, idx2_lt0 i⟩ : Fin 320000) k) :=
  concatenate_apply_piece (1 : Fin S320000x768.rank) _ _ _ 2 (by show (2 : Nat) < 3; omega) S320000x256 ef rfl rfl 512 rfl
    (ix2 (⟨(i 0).val, idx2_lt0 i⟩ : Fin 320000) k)
    (fun b hb => by match b with | ⟨0, _⟩ => rfl | ⟨1, _⟩ => exact absurd (Fin.ext rfl) hb)
    rfl

/-! ### The weight's rows 256·b + k are row k of its block b -/

theorem w_run0 (x8 : FVec Ideal S768x256 .f32) (i : S320000x256.Idx) (k : Fin 256) :
    x8 (ridx_main_v25 i ⟨k.val, by have := k.isLt; omega⟩)
      = Cert.Mix.wBlock 0 x8 (ix2 k (⟨(i 1).val, idx2_lt1 i⟩ : Fin 256)) := by
  unfold Cert.Mix.wBlock
  exact congrArg x8 (funext fun a => Fin.ext (by
    match a with
    | ⟨0, _⟩ => show k.val = 256 * 0 + k.val; omega
    | ⟨1, _⟩ => rfl))

theorem w_run1 (x8 : FVec Ideal S768x256 .f32) (i : S320000x256.Idx) (k : Fin 256) :
    x8 (ridx_main_v25 i ⟨256 + k.val, by have := k.isLt; omega⟩)
      = Cert.Mix.wBlock 1 x8 (ix2 k (⟨(i 1).val, idx2_lt1 i⟩ : Fin 256)) := by
  unfold Cert.Mix.wBlock
  exact congrArg x8 (funext fun a => Fin.ext (by
    match a with
    | ⟨0, _⟩ => show 256 + k.val = 256 * 1 + k.val; omega
    | ⟨1, _⟩ => rfl))

theorem w_run2 (x8 : FVec Ideal S768x256 .f32) (i : S320000x256.Idx) (k : Fin 256) :
    x8 (ridx_main_v25 i ⟨512 + k.val, by have := k.isLt; omega⟩)
      = Cert.Mix.wBlock 2 x8 (ix2 k (⟨(i 1).val, idx2_lt1 i⟩ : Fin 256)) := by
  unfold Cert.Mix.wBlock
  exact congrArg x8 (funext fun a => Fin.ext (by
    match a with
    | ⟨0, _⟩ => show 512 + k.val = 256 * 2 + k.val; omega
    | ⟨1, _⟩ => rfl))

/-! ### The bias and the zero of the mix layer at an index -/

theorem mix_bias (x9 : FVec Ideal S256 .f32) (i : S320000x256.Idx) :
    broadcastInDim S320000x256 ![0, 1] bcast_S1x256_S320000x256_0_1 (broadcastInDim S1x256 ![1] bcast_S256_S1x256_1 x9) i
      = x9 (ix1 (⟨(i 1).val, idx2_lt1 i⟩ : Fin 256)) := by
  show val_main_v27 (F := Ideal) x9 i = _
  rw [val_main_v27_apply, val_main_v26_apply]
  exact congrArg x9 (funext fun a => Fin.ext (by match a with | ⟨0, _⟩ => rfl))

theorem mix_zero (i : S320000x256.Idx) :
    broadcastInDim S320000x256 ![] bcast_S_S320000x256 (constant (F := Ideal) S_ .f32 0x00000000#32) i = Cert.Mix.z32 := by
  show val_main_call2_v0 (F := Ideal) i = _
  rw [val_main_call2_v0_apply, val_main_call2_cst_apply]
  rfl

/-- The reference's mix layer — one product of the three arrays joined side by side against the whole weight — is the
    mix layer of the three arrays against the weight's three row blocks. -/
theorem feat_eq (g1 g2 ef : FVec Ideal S320000x256 .f32) (x8 : FVec Ideal S768x256 .f32) (x9 : FVec Ideal S256 .f32) :
    maximumf
        (addf
          (Host.dotGeneral dot_S320000x768_S768x256_S320000x256_1_0_0_1_n_n none
            (concatenate S320000x768 1 [⟨S320000x256, g1⟩, ⟨S320000x256, g2⟩, ⟨S320000x256, ef⟩]
              concatenates_S320000x256_S320000x256_S320000x256_S320000x768_d1) x8)
          (broadcastInDim S320000x256 ![0, 1] bcast_S1x256_S320000x256_0_1 (broadcastInDim S1x256 ![1] bcast_S256_S1x256_1 x9)))
        (broadcastInDim S320000x256 ![] bcast_S_S320000x256 (constant (F := Ideal) S_ .f32 0x00000000#32))
      = Cert.Mix.mixRelu (E := 320000) g1 g2 ef (Cert.Mix.wBlock 0 x8) (Cert.Mix.wBlock 1 x8) (Cert.Mix.wBlock 2 x8) x9 := by
  funext i
  rw [maximumf_apply, addf_apply, mix_dot_apply, mix_bias, mix_zero, sum_three_runs]
  unfold Cert.Mix.mixRelu
  simp only [cat_run0, cat_run1, cat_run2, w_run0, w_run1, w_run2]

end Cert.ReferenceIdeal.RefVal

end
-- ==== Proof.LibScatterRows.lean ====
/-
  A GENERAL LEMMA about the accumulating row scatter (jax's segment_sum, `x.at[rows].add(u)`), at the ideal values.

  The scatter adds update row e of an [E, C] array into row `idx[e]` of an [N, C] operand; an update whose row index is
  outside 0 … N−1 is dropped. So the result reads only the update rows whose index is in range: two update arrays
  that agree on those rows scatter to the same array. The dimension numbers are the ones a row scatter prints with
  (window axis 1, inserted axis 0, the index column on axis 1); a program's own record with these numbers is this one
  by `rfl`.
-/
import Idealize.ShloMosaic.PureOps.Ideal

noncomputable section

namespace Idealize.ShloMosaic.ScatterRows

open Idealize.ShloMosaic

/-- The row scatter's dimension numbers: updates [E, C] into an operand [N, C] at a column [E, 1] of row indices. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Row e of the index column. -/
abbrev col {E : Nat} (e : Fin E) : (⟨2, ![E, 1]⟩ : Shape).Idx := fun a => match a with | ⟨0, _⟩ => e | ⟨1, _⟩ => (0 : Fin 1)

variable {N E C : Nat} (wf : ScatterDims.WF ⟨2, ![N, C]⟩ ⟨2, ![E, 1]⟩ ⟨2, ![E, C]⟩ [1] [0] [0] 1)

/-- On the row axis the window of update (e, q) starts at the index the column holds at e, read signed. -/
theorem start_row {w : Nat} (j : (⟨2, ![E, C]⟩ : Shape).Idx) (idx : IVec ⟨2, ![E, 1]⟩ w) :
    (rowDims N E C wf).start j idx 0 = (idx (col ⟨(j 0).val, (j 0).isLt⟩)).toInt := by
  unfold ScatterDims.start
  rw [dif_pos (show (0 : Fin 2) ∈ (rowDims N E C wf).scatterDimsToOperandDims from List.mem_singleton.mpr rfl)]
  congr 2
  funext b
  refine Fin.ext ?_
  match b with
  | ⟨0, _⟩ => rfl
  | ⟨1, _⟩ => rfl

/-- The row axis is inserted: the window has no coordinate on it. -/
theorem window_row (j : (⟨2, ![E, C]⟩ : Shape).Idx) : (rowDims N E C wf).window j 0 = 0 := by
  unfold ScatterDims.window
  rw [dif_neg (show ¬ (0 : Fin 2) ∈ (rowDims N E C wf).sKept by
    simp [ScatterDims.sKept, Shape.kept, List.mem_filter, List.mem_finRange])]

/-- An update that lands on an element of the operand has its row index inside the operand. -/
theorem row_in_range_of_lands {w : Nat} (j : (⟨2, ![E, C]⟩ : Shape).Idx) (idx : IVec ⟨2, ![E, 1]⟩ w)
    (i : (⟨2, ![N, C]⟩ : Shape).Idx) (h : (rowDims N E C wf).resultIdx? j idx = some i) :
    0 ≤ (idx (col ⟨(j 0).val, (j 0).isLt⟩)).toInt ∧ (idx (col ⟨(j 0).val, (j 0).isLt⟩)).toInt < (N : Int) := by
  unfold ScatterDims.resultIdx? at h
  split at h
  · rename_i hall
    have h0 := hall 0
    rw [start_row, window_row] at h0
    simpa using h0
  · exact absurd h (by simp)

/-- THE CONGRUENCE: the accumulating row scatter of two update arrays that agree on every row whose index is inside
    the operand is the same array. -/
theorem hostScatterAdd_congr_rows {w : Nat} (x : (⟨2, ![N, C]⟩ : Shape).Idx → EReal) (idx : IVec ⟨2, ![E, 1]⟩ w)
    (u u' : (⟨2, ![E, C]⟩ : Shape).Idx → EReal)
    (h : ∀ j : (⟨2, ![E, C]⟩ : Shape).Idx, 0 ≤ (idx (col ⟨(j 0).val, (j 0).isLt⟩)).toInt →
      (idx (col ⟨(j 0).val, (j 0).isLt⟩)).toInt < (N : Int) → u j = u' j) :
    Ideal.hostScatterAdd (rowDims N E C wf) x idx u = Ideal.hostScatterAdd (rowDims N E C wf) x idx u' := by
  funext i
  unfold Ideal.hostScatterAdd
  congr 1
  refine Finset.sum_congr rfl fun j hj => ?_
  have hl := (Finset.mem_filter.mp hj).2
  obtain ⟨h0, h1⟩ := row_in_range_of_lands wf j idx i hl
  exact h j h0 h1

end Idealize.ShloMosaic.ScatterRows

end
-- ==== Proof.Bridge.lean ====
/-
  THE TWO RESULTS ARE ONE FUNCTION of the arguments, where every entry of the first index vector is in 0 … 9999.

  Both programs end with the same tail (segment sum, segment count, mean) of their mix layer's rows. The reference's mix
  layer is the mix layer of Proof/Spec.lean over the two GATHERED arrays; the kernel's is the same over the two TAKES, which
  replace a gathered row by the fill word where the row's index is out of range. On the first index vector that never
  happens (the precondition). On the second it can — but the segment sum drops exactly the rows whose second index is
  outside 0 … 9999, and inside that range the take is the gather: the two segment sums are equal, and the rest of the tail
  reads nothing else of the mix layer.
-/
import proofs.«400839_j63007170232987_1_alg».proof.Proof.HostVal
import proofs.«400839_j63007170232987_1_alg».proof.Proof.TakeRows
import proofs.«400839_j63007170232987_1_alg».proof.Proof.RefValue
import proofs.«400839_j63007170232987_1_alg».proof.Proof.LibScatterRows
import proofs.«400839_j63007170232987_1_alg».proof.Proof.Spec
import Idealize.ShloMosaic.Lib.Pipeline.Value
import Idealize.ShloMosaic.Lib.ValueIdx

set_option maxRecDepth 16384

noncomputable section

namespace Cert.Bridge

open Idealize.ShloMosaic Idealize.ShloMosaic.ValueIdx Idealize.ShloMosaic.ScatterRows
open Cert.KernelIdeal Cert.KernelIdeal.Gen Cert.KernelIdeal.HostVal

section AnyF
variable {F : FTy → Type} [FloatOps F]

/-- The reference lays its index vectors out as the kernel's program does. -/
theorem wrap2 (x : IVec S320000 32) : Cert.ReferenceIdeal.ReadP.val_main_v15 (F := F) x = wrapCol x := rfl
theorem wrap3 (x : IVec S320000 32) : Cert.ReferenceIdeal.ReadP.val_main_v22 (F := F) x = wrapCol x := rfl

/-- The reference's result is the same tail of ITS mix layer's output. -/
theorem ref_tail (x0 : FVec F S10000x256 .f32) (x1 : FVec F S320000x32 .f32) (x2 x3 : IVec S320000 32)
    (x4 : FVec F S256x256 .f32) (x5 : FVec F S256 .f32) (x6 : FVec F S32x256 .f32) (x7 : FVec F S256 .f32)
    (x8 : FVec F S768x256 .f32) (x9 : FVec F S256 .f32) :
    Cert.ReferenceIdeal.ReadP.val_main_v45 (F := F) x0 x1 x2 x3 x4 x5 x6 x7 x8 x9
      = tailRows (F := F) (Cert.ReferenceIdeal.ReadP.val_main_v29 (F := F) x0 x1 x2 x3 x4 x5 x6 x7 x8 x9) x3 := rfl

end AnyF

/-- The weight's row slices are its row blocks. -/
theorem slice0 (x8 : FVec Ideal S768x256 .f32) :
    extractStridedSlice S256x256 ![0, 0] x8 slices_S768x256_S256x256_0_0 = Cert.Mix.wBlock 0 x8 := by
  funext i; unfold extractStridedSlice Cert.Mix.wBlock; congr 1; funext a; refine Fin.ext ?_
  match a with
  | ⟨0, _⟩ => show 0 + (i 0).val = 256 * 0 + (i 0).val; omega
  | ⟨1, _⟩ => show 0 + (i 1).val = (i 1).val; omega
theorem slice1 (x8 : FVec Ideal S768x256 .f32) :
    extractStridedSlice S256x256 ![256, 0] x8 slices_S768x256_S256x256_256_0 = Cert.Mix.wBlock 1 x8 := by
  funext i; unfold extractStridedSlice Cert.Mix.wBlock; congr 1; funext a; refine Fin.ext ?_
  match a with
  | ⟨0, _⟩ => show 256 + (i 0).val = 256 * 1 + (i 0).val; omega
  | ⟨1, _⟩ => show 0 + (i 1).val = (i 1).val; omega
theorem slice2 (x8 : FVec Ideal S768x256 .f32) :
    extractStridedSlice S256x256 ![512, 0] x8 slices_S768x256_S256x256_512_0 = Cert.Mix.wBlock 2 x8 := by
  funext i; unfold extractStridedSlice Cert.Mix.wBlock; congr 1; funext a; refine Fin.ext ?_
  match a with
  | ⟨0, _⟩ => show 512 + (i 0).val = 256 * 2 + (i 0).val; omega
  | ⟨1, _⟩ => show 0 + (i 1).val = (i 1).val; omega

/-- The segment sum reads only the rows whose segment index is in 0 … 9999. -/
theorem segSum_congr (F1 F2 : FVec Ideal S320000x256 .f32) (seg : IVec S320000 32)
    (h : ∀ (r : Fin 320000) (q : Fin 256), 0 ≤ (seg (ix1 r)).toInt → (seg (ix1 r)).toInt < 10000 →
      F1 (ix2 r q) = F2 (ix2 r q)) :
    segSum (F := Ideal) F1 seg = segSum (F := Ideal) F2 seg := by
  show Ideal.hostScatterAdd (rowDims 10000 320000 256 scatter_S10000x256_S320000x1_S320000x256_1_0_0_1_wf) _ _ F1
    = Ideal.hostScatterAdd (rowDims 10000 320000 256 scatter_S10000x256_S320000x1_S320000x256_1_0_0_1_wf) _ _ F2
  refine hostScatterAdd_congr_rows _ _ _ F1 F2 fun j h0 h1 => ?_
  have e : broadcastInDim S320000x1 ![0] bcast_S320000_S320000x1_0 seg (col ⟨(j 0).val, (j 0).isLt⟩)
      = seg (ix1 ⟨(j 0).val, (j 0).isLt⟩) :=
    broadcastInDim_apply _ bcast_S320000_S320000x1_0 seg _ _ (fun a => match a with
      | ⟨0, _⟩ => by show (j 0).val = if (320000 : Nat) = 1 then 0 else (j 0).val; rw [if_neg (by decide)])
  rw [e] at h0 h1
  have hj := h ⟨(j 0).val, (j 0).isLt⟩ ⟨(j 1).val, (j 1).isLt⟩ h0 h1
  rw [eq_ix2 j]
  exact hj

/-- THE BRIDGE. -/
theorem out_eq (x0 : FVec Ideal S10000x256 .f32) (x1 : FVec Ideal S320000x32 .f32) (x2 x3 : IVec S320000 32)
    (x4 : FVec Ideal S256x256 .f32) (x5 : FVec Ideal S256 .f32) (x6 : FVec Ideal S32x256 .f32) (x7 : FVec Ideal S256 .f32)
    (x8 : FVec Ideal S768x256 .f32) (x9 : FVec Ideal S256 .f32)
    (hidx : ∀ e : S320000.Idx, 0 ≤ (x2 e).toInt ∧ (x2 e).toInt < 10000) :
    tailRows (F := Ideal)
        (Cert.Mix.mixRelu (E := 320000)
          (takeRows (F := Ideal) (Cert.Mix.linRelu (R := 10000) (K := 256) x0 x4 x5) x2)
          (takeRows (F := Ideal) (Cert.Mix.linRelu (R := 10000) (K := 256) x0 x4 x5) x3)
          (Cert.Mix.linRelu (R := 320000) (K := 32) x1 x6 x7)
          (extractStridedSlice S256x256 ![0, 0] x8 slices_S768x256_S256x256_0_0)
          (extractStridedSlice S256x256 ![256, 0] x8 slices_S768x256_S256x256_256_0)
          (extractStridedSlice S256x256 ![512, 0] x8 slices_S768x256_S256x256_512_0) x9) x3
      = Cert.ReferenceIdeal.ReadP.val_main_v45 (F := Ideal) x0 x1 x2 x3 x4 x5 x6 x7 x8 x9 := by
  have hfeat : Cert.ReferenceIdeal.ReadP.val_main_v29 (F := Ideal) x0 x1 x2 x3 x4 x5 x6 x7 x8 x9
      = Cert.Mix.mixRelu (E := 320000)
          (Host.gather gather_S10000x256_S320000x1_S320000x256_1_0_n_n_0_1_1256 (Cert.Mix.linRelu (R := 10000) (K := 256) x0 x4 x5) (wrapCol x2))
          (Host.gather gather_S10000x256_S320000x1_S320000x256_1_0_n_n_0_1_1256 (Cert.Mix.linRelu (R := 10000) (K := 256) x0 x4 x5) (wrapCol x3))
          (Cert.Mix.linRelu (R := 320000) (K := 32) x1 x6 x7)
          (Cert.Mix.wBlock 0 x8) (Cert.Mix.wBlock 1 x8) (Cert.Mix.wBlock 2 x8) x9 := by
    refine (Cert.ReferenceIdeal.RefVal.feat_eq
      (Cert.ReferenceIdeal.ReadP.val_main_v16 (F := Ideal) x0 x2 x4 x5)
      (Cert.ReferenceIdeal.ReadP.val_main_v23 (F := Ideal) x0 x3 x4 x5)
      (Cert.ReferenceIdeal.ReadP.val_main_v4 (F := Ideal) x1 x6 x7) x8 x9).trans ?_
    rw [Cert.ReferenceIdeal.RefVal.ef_eq]
    show Cert.Mix.mixRelu (E := 320000)
      (Host.gather Cert.ReferenceIdeal.gather_S10000x256_S320000x1_S320000x256_1_0_n_n_0_1_1256
        (Cert.ReferenceIdeal.ReadP.val_main_v9 (F := Ideal) x0 x4 x5) (Cert.ReferenceIdeal.ReadP.val_main_v15 (F := Ideal) x2))
      (Host.gather Cert.ReferenceIdeal.gather_S10000x256_S320000x1_S320000x256_1_0_n_n_0_1_1256
        (Cert.ReferenceIdeal.ReadP.val_main_v9 (F := Ideal) x0 x4 x5) (Cert.ReferenceIdeal.ReadP.val_main_v22 (F := Ideal) x3))
      _ _ _ _ _ = _
    rw [Cert.ReferenceIdeal.RefVal.nf_eq, wrap2, wrap3]
    rfl
  rw [ref_tail (F := Ideal), hfeat, slice0, slice1, slice2]
  unfold tailRows
  refine congrArg (fun s => meanRows (F := Ideal) s (segCount (F := Ideal) x3)) (segSum_congr _ _ x3 fun r q h0 h1 => ?_)
  refine Cert.Mix.mixRelu_congr_row _ _ _ _ _ _ _ _ _ _ (ix2 r q) (fun k => ?_) (fun k => ?_) (fun k => rfl)
  · exact takeRows_apply_of_in_range _ x2 r k (hidx (ix1 r)).1 (hidx (ix1 r)).2
  · exact takeRows_apply_of_in_range _ x3 r k h0 h1

end Cert.Bridge

end
-- ==== Proof.PreIdx.lean ====
/-
  THE ADDED CONJUNCT OF THE PRECONDITION, READ BACK: every entry of the first index vector is in 0 … 9999, as a signed
  32-bit word. The printed precondition is a conjunction of `jnp.all`s; its last conjunct is the `all` over the vector
  of "0 ≤ idx and idx < 10000". A conjunction of bits that is 1 has every conjunct 1; an `all` that is 1 has every
  element 1; a signed comparison that is 1 is the comparison of the words read as integers.
-/
import proofs.«400839_j63007170232987_1_alg».proof.Pre_finite_inputs
import proofs.«400839_j63007170232987_1_alg».proof.Proof.Gen.Pre_finite_inputs
import Idealize.ShloMosaic.Lib.ReduceAll
import Idealize.ShloMosaic.Lib.ValueIdx

noncomputable section

namespace Cert.Pre_finite_inputs.Idx

open Idealize.ShloMosaic Cert.Pre_finite_inputs Cert.Pre_finite_inputs.Gen

variable {F : FTy → Type} [FloatOps F]

/-- The scalar shape has one index. -/
instance : Subsingleton S_.Idx := ⟨fun a b => funext fun d => d.elim0⟩

/-- Under the precondition every entry of the first index vector, read signed, lies in 0 … 9999. -/
theorem idx_in_range (a0 : FVec F S10000x256 .f32) (a1 : FVec F S320000x32 .f32) (a2 a3 : IVec S320000 32)
    (a4 : FVec F S256x256 .f32) (a5 : FVec F S256 .f32) (a6 : FVec F S32x256 .f32) (a7 : FVec F S256 .f32)
    (a8 : FVec F S768x256 .f32) (a9 : FVec F S256 .f32)
    (h : fn (F := F) a0 a1 a2 a3 a4 a5 a6 a7 a8 a9 = fun _ => 1#1) (e : S320000.Idx) :
    0 ≤ (a2 e).toInt ∧ (a2 e).toInt < 10000 := by
  have h0 := congrFun h ValueIdx.ix0
  dsimp only [fn, fn_part1, fn_part2] at h0
  have h44 := (IntOp.andi_eq_one.mp h0).2
  have he := Host.reduce_andi_all _ _ _ _ _ h44 e
  obtain ⟨hge, hlt⟩ := IntOp.andi_eq_one.mp he
  have hge' := IntOp.cmpi_sge.mp hge
  have hlt' := IntOp.cmpi_slt.mp hlt
  exact ⟨hge', hlt'⟩

end Cert.Pre_finite_inputs.Idx

end
-- ==== Proof.lean ====
/-
  A graph layer: node features and edge features by a linear layer with relu each; per edge, the node features of its two
  end nodes (two index vectors) and its edge features go through a second linear layer with relu (the mix layer); each
  node's result is the mean of the mix layer's rows over the edges whose second index is that node (zero for a node with
  no edge).

  The kernel's program computes the three linear layers in three grid regions — the mix layer as three products against the
  three row blocks of its weight, added — and the rest on the host; the reference computes the mix layer as one product of
  the three arrays joined side by side against the whole weight. Over the extended reals the two are one function of the
  arguments: a sum over 768 terms is the sum of its three runs of 256 (addition there is associative and commutative; no
  finiteness is used). The one place they part is an index outside 0 … 9999: the kernel's take replaces such a row by the
  fill word, the reference's gather clamps the index. For the first index vector the precondition keeps every index in
  range; for the second, a row whose index is out of range is dropped by the segment sum in both programs, so nothing is
  asked of it.

  The three frames: the kernel's two programs by their generated frames, the reference by its run with the result dropped.
  The idealization rewrote nothing. The value: the kernel's run with its result kept (Proof/ValueRun.lean) read back
  through the run's boundaries (Proof/KernelValue.lean), the reference's run, and the bridge between the two results
  (Proof/Bridge.lean).
-/
import proofs.«400839_j63007170232987_1_alg».proof.Defs
import proofs.«400839_j63007170232987_1_alg».proof.Proof.Gen.Kernel
import proofs.«400839_j63007170232987_1_alg».proof.Proof.Gen.Kernel.Skeleton
import proofs.«400839_j63007170232987_1_alg».proof.Proof.Gen.Kernel.Launch
import proofs.«400839_j63007170232987_1_alg».proof.Proof.Gen.Kernel.Points
import proofs.«400839_j63007170232987_1_alg».proof.Proof.Gen.Kernel.Frame
import proofs.«400839_j63007170232987_1_alg».proof.Proof.Gen.KernelIdeal
import proofs.«400839_j63007170232987_1_alg».proof.Proof.Gen.KernelIdeal.Skeleton
import proofs.«400839_j63007170232987_1_alg».proof.Proof.Gen.KernelIdeal.Launch
import proofs.«400839_j63007170232987_1_alg».proof.Proof.Gen.KernelIdeal.Points
import proofs.«400839_j63007170232987_1_alg».proof.Proof.Gen.KernelIdeal.Frame
import proofs.«400839_j63007170232987_1_alg».proof.Proof.Gen.ReferenceIdeal
import proofs.«400839_j63007170232987_1_alg».proof.Proof.Gen.Pre_finite_inputs
import proofs.«400839_j63007170232987_1_alg».proof.Proof.RefRun
import proofs.«400839_j63007170232987_1_alg».proof.Proof.RefRead
import proofs.«400839_j63007170232987_1_alg».proof.Proof.ValueRun
import proofs.«400839_j63007170232987_1_alg».proof.Proof.KernelValue
import proofs.«400839_j63007170232987_1_alg».proof.Proof.Bridge
import proofs.«400839_j63007170232987_1_alg».proof.Proof.PreIdx
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end, from memories that agree on the arguments, with the result buffer at the same function of the
    arguments: the kernel's at `KVal.out`, the reference's at its composed term, which is that function where the first
    index vector is in range. -/
theorem algebraic : Cert.algebraic_KernelIdeal_ReferenceIdeal := by
  intro m ρ m' ρ' hpre hagree
  refine ⟨fun c => Cert.KernelIdeal.KVal.out m c, ?_, ?_⟩
  · exact (θ_run Cert.KernelIdeal.defs _ _).mono
      (fun r h c => ⟨(h c).1.trans (Cert.KernelIdeal.KVal.W8_v23_eq m ρ c), (h c).2⟩)
      (Cert.KernelIdeal.GenV.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [e0, e1, e2, e3, e4, e5, e6, e7, e8, e9]
    refine (Cert.ReferenceIdeal.ReadP.val_main_v45_eq _ _ _ _ _ _ _ _ _ _).trans ?_
    exact (Cert.Bridge.out_eq _ _ _ _ _ _ _ _ _ _
      (Cert.Pre_finite_inputs.Idx.idx_in_range _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
